-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128 .f32) (main_arg10 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S800000 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S1 .f32) (main_arg11 : IVec S800000 32) (main_arg12 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1 : Shape := ⟨1, ![1]⟩
abbrev S800000x1 : Shape := ⟨2, ![800000, 1]⟩
abbrev S_ : Shape := ⟨0, ![]⟩
abbrev S800000x128 : Shape := ⟨2, ![800000, 128]⟩
abbrev S1x1 : Shape := ⟨2, ![1, 1]⟩
abbrev S2000x128 : Shape := ⟨2, ![2000, 128]⟩
abbrev S1x128 : Shape := ⟨2, ![1, 128]⟩

abbrev nBuf : Space → Nat
  | .hbm => 61
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1, .f32⟩
  | .hbm, ⟨11, _⟩ => ⟨S800000, .i32⟩
  | .hbm, ⟨12, _⟩ => ⟨S800000, .i32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x1, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S1x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | .local _ .vmem, ⟨29, _⟩ => ⟨S1x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S2000x128, .f32⟩
  | .local _ .vmem, ⟨38, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg5_0 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc3_sem4_0 : DmaSem sig := 29
abbrev cc3_sem5_0 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x1_S2000x128 : S1x1.Broadcasts S2000x128
  shapeCasts_S128_S1x128 : S128.ShapeCasts S1x128
  inb_S1x128_S1x128_0_0 : ∀ a, (![0, 0] : Fin 2 → Nat) a + S1x128.size a ≤ S1x128.size a
  h_S1x128 : 0 < S1x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v16_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v25) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27_0) S2000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v27_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v27_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v27_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v35) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v36) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1 : Shape := ⟨1, ![1]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1, .f32⟩
  | .hbm, ⟨11, _⟩ => ⟨S800000, .i32⟩
  | .hbm, ⟨12, _⟩ => ⟨S800000, .i32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S1x128, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S50000x128, .f32⟩
  | .hbm, ⟨114, _⟩ => ⟨S_, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S50000x128, .f32⟩
  | .hbm, ⟨119, _⟩ => ⟨S50000x128, .f32⟩
  | .hbm, ⟨120, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_14 : Ref sig .tc := ⟨.hbm, 114, rfl⟩
abbrev main_v85 : Ref sig .tc := ⟨.hbm, 115, rfl⟩
abbrev main_v86 : Ref sig .tc := ⟨.hbm, 116, rfl⟩
abbrev main_cst_15 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S1_S_ : S1.ShapeCasts S_
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibRealValued.lean ====
/-
  Extended reals that are real numbers.

  An extended real is REAL when it is the image of a real number, that is, neither of the two infinities. The real
  values are closed under the field operations, under maximum and minimum, under a quotient by a non-zero real and
  under finite sums. On real values the extended reals are a commutative ring, so the distributive law, which fails
  at the infinities (a negative factor times ⊤ + ⊥ is ⊤, while the sum of the two products is ⊥), holds.
-/
import Idealize.ShloMosaic.PureOps.Ideal

noncomputable section

namespace Cert.RealValued

open Idealize.ShloMosaic

/-- The extended real `a` is a real number. -/
def IsReal (a : EReal) : Prop := ∃ r : ℝ, a = (r : EReal)

theorem IsReal.coe (r : ℝ) : IsReal (r : EReal) := ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  rcases le_total a b with h | h
  · rw [max_eq_right h]; exact hb
  · rw [max_eq_left h]; exact ha

theorem IsReal.min {a b : EReal} (ha : IsReal a) (hb : IsReal b) : IsReal (min a b) := by
  rcases le_total a b with h | h
  · rw [min_eq_left h]; exact ha
  · rw [min_eq_right h]; exact hb

/-- The quotient of a real value by a non-zero real number is real: it is the product with the reciprocal. -/
theorem IsReal.div_coe {a : EReal} {y : ℝ} (hy : y ≠ 0) (ha : IsReal a) : IsReal (Ideal.div a (y : EReal)) := by
  rw [Ideal.div_coe hy]
  exact ha.mul ⟨_, rfl⟩

/-- A finite sum of real values is real. -/
theorem IsReal.sum {ι : Type*} (s : Finset ι) (f : ι → EReal) : (∀ i ∈ s, IsReal (f i)) → IsReal (∑ i ∈ s, f i) := by
  classical
  refine Finset.induction_on s (fun _ => ⟨0, by simp⟩) ?_
  intro a s ha ih h
  rw [Finset.sum_insert ha]
  exact (h a (Finset.mem_insert_self a s)).add (ih fun i hi => h i (Finset.mem_insert_of_mem hi))

/-- On real values: `(-c) · d + c · p = c · (p - d)`. -/
theorem neg_mul_add_mul_eq_mul_sub {c p d : EReal} (hc : IsReal c) (hp : IsReal p) (hd : IsReal d) :
    -c * d + c * p = c * (p - d) := by
  obtain ⟨c, rfl⟩ := hc
  obtain ⟨p, rfl⟩ := hp
  obtain ⟨d, rfl⟩ := hd
  rw [← EReal.coe_neg, ← EReal.coe_mul, ← EReal.coe_mul, ← EReal.coe_add, ← EReal.coe_sub, ← EReal.coe_mul]
  congr 1
  ring

end Cert.RealValued

end
-- ==== Proof.Spec.lean ====
/-
  The layer this kernel and its reference both compute, over the extended reals, entry by entry.

  A node-feature matrix h (50000 rows, 128 columns) goes through: a linear map o = h·W + b; the column means
  μ = (Σ_p o(p,·))/n and a column variance; the normalisation z = (o − μ)·(var + ε)^(-1/2)·g + β; and z·σ(z) with the
  logistic σ. The two programs differ in the variance alone: one takes the mean of the squares minus the square of
  the mean, the other the mean of the squared deviations. On REAL entries these are one number
  (Σ(o−μ)² = Σo² − 2μΣo + nμ² and Σo = nμ); at an infinite entry they are not (⊤ − ⊤ is ⊥), so the law is stated
  for real-valued operands, and every stage is shown to keep real values real (var + ε > 0 keeps the inverse root real).
-/
import Idealize.ShloMosaic.PureOps.Ideal
import proofs.«137879_j90031104459187_1_alg».proof.Proof.LibRealValued

noncomputable section

open scoped BigOperators

namespace Gin

open Idealize.ShloMosaic Cert.RealValued

abbrev Mat (a b : ℕ) := Fin a → Fin b → EReal
abbrev Row (b : ℕ) := Fin b → EReal

/-- The three float words both programs carry: 1, the row count 50000, and the variance guard ε (the f32 nearest 1e-5). -/
def one32 : EReal := Ideal.ofBits .f32 0x3F800000#32
def n32 : EReal := Ideal.ofBits .f32 0x47435000#32
def eps32 : EReal := Ideal.ofBits .f32 0x3727C5AC#32

/-- Every entry is a real number. -/
def RealM {a b : ℕ} (h : Mat a b) : Prop := ∀ p q, IsReal (h p q)
def RealR {b : ℕ} (v : Row b) : Prop := ∀ q, IsReal (v q)

/-- The aggregate plus (1 + e) times the features. -/
def resid (agg x : Mat 50000 128) (e : EReal) : Mat 50000 128 := fun p q => agg p q + (one32 + e) * x p q

/-- The linear map: h·W + b. -/
def lin (h : Mat 50000 128) (W : Mat 128 128) (b : Row 128) : Mat 50000 128 := fun p q => (∑ k, h p k * W k q) + b q

def colSum (o : Mat 50000 128) : Row 128 := fun q => ∑ p, o p q
def colSumSq (o : Mat 50000 128) : Row 128 := fun q => ∑ p, o p q * o p q
def mean (o : Mat 50000 128) : Row 128 := fun q => Ideal.div (colSum o q) n32
/-- Mean of the squares minus the square of the mean. -/
def varK (o : Mat 50000 128) : Row 128 := fun q => Ideal.div (colSumSq o q) n32 - mean o q * mean o q
/-- Mean of the squared deviations from the mean. -/
def varR (o : Mat 50000 128) : Row 128 := fun q => Ideal.div (∑ p, (o p q - mean o q) * (o p q - mean o q)) n32

/-- The normalised entry, then its product with its logistic. -/
def bnz (o mu va g be : EReal) : EReal := (o - mu) * Ideal.rsqrt (va + eps32) * g + be
def swish (z : EReal) : EReal := z * Ideal.logistic z
def bnSwish (o : Mat 50000 128) (mu va g be : Row 128) : Mat 50000 128 := fun p q => swish (bnz (o p q) (mu q) (va q) (g q) (be q))

def layerK (h : Mat 50000 128) (W : Mat 128 128) (b g be : Row 128) : Mat 50000 128 :=
  bnSwish (lin h W b) (mean (lin h W b)) (varK (lin h W b)) g be
def layerR (h : Mat 50000 128) (W : Mat 128 128) (b g be : Row 128) : Mat 50000 128 :=
  bnSwish (lin h W b) (mean (lin h W b)) (varR (lin h W b)) g be

/-! ### The three float words are real numbers -/

/-- The word 0x3F800000 denotes 1. -/
private theorem one32_eq : one32 = ((1 : ℝ) : EReal) := by
  simp [one32, Ideal.ofBits, Ideal.ieee, -EReal.coe_mul]; norm_num

/-- The word 0x47435000 denotes 50000: (2^23 + 4411392) · 2^(142 − 127 − 23) = 12800000 / 256. -/
private theorem n32_eq : n32 = ((50000 : ℝ) : EReal) := by
  simp [n32, Ideal.ofBits, Ideal.ieee, -EReal.coe_mul]; norm_num

/-- The word 0x3727C5AC denotes a positive real: (2^23 + 2606508) · 2^(110 − 127 − 23). -/
private theorem eps32_pos : ∃ r : ℝ, 0 < r ∧ eps32 = (r : EReal) := by
  refine ⟨(10995116 : ℝ) * (2 : ℝ) ^ (-40 : Int), by positivity, ?_⟩
  simp [eps32, Ideal.ofBits, Ideal.ieee, -EReal.coe_mul]

/-! ### Real matrices as matrices of real numbers -/

/-- The inclusion of the reals commutes with finite sums. -/
private theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A matrix of real values is the image of a matrix of real numbers. -/
private theorem exists_real {a b : ℕ} {o : Mat a b} (ho : RealM o) :
    ∃ f : Fin a → Fin b → ℝ, o = fun p q => (f p q : EReal) := by
  choose f hf using ho
  exact ⟨f, funext fun p => funext fun q => hf p q⟩

/-- The linear map of real operands is real: finite sums and products of reals. -/
private theorem lin_real {h : Mat 50000 128} {W : Mat 128 128} {b : Row 128} (hh : RealM h) (hW : RealM W) (hb : RealR b) :
    RealM (lin h W b) := by
  intro p q
  show IsReal ((∑ k, h p k * W k q) + b q)
  exact (IsReal.sum _ _ fun k _ => (hh p k).mul (hW k q)).add (hb q)

/-! ### Mean and the two variances on real numbers -/

private theorem mean_coe (f : Fin 50000 → Fin 128 → ℝ) (q : Fin 128) :
    mean (fun p q => (f p q : EReal)) q = (((∑ p, f p q) * (1 / 50000) : ℝ) : EReal) := by
  simp only [mean, colSum]
  rw [n32_eq, Ideal.div_coe (y := 50000) (by norm_num), EReal.coe_mul, coe_sum]

private theorem varK_coe (f : Fin 50000 → Fin 128 → ℝ) (q : Fin 128) :
    varK (fun p q => (f p q : EReal)) q
      = (((∑ p, f p q * f p q) * (1 / 50000) - (∑ p, f p q) * (1 / 50000) * ((∑ p, f p q) * (1 / 50000)) : ℝ) : EReal) := by
  simp only [varK, colSumSq]
  rw [mean_coe, n32_eq, Ideal.div_coe (y := 50000) (by norm_num)]
  simp only [EReal.coe_mul, EReal.coe_sub, coe_sum]

private theorem varR_coe (f : Fin 50000 → Fin 128 → ℝ) (q : Fin 128) :
    varR (fun p q => (f p q : EReal)) q
      = (((∑ p, (f p q - (∑ p, f p q) * (1 / 50000)) * (f p q - (∑ p, f p q) * (1 / 50000))) * (1 / 50000) : ℝ) : EReal) := by
  simp only [varR]
  rw [n32_eq, Ideal.div_coe (y := 50000) (by norm_num)]
  simp only [mean_coe, EReal.coe_mul, EReal.coe_sub, coe_sum]

/-- Over the reals, with Σ f = n·m: (Σ f²)/n − m² = (Σ (f − m)²)/n, since Σ (f − m)² = Σ f² − 2m Σ f + n m². -/
private theorem var_real (f : Fin 50000 → Fin 128 → ℝ) (q : Fin 128) (m : ℝ) (hm : ∑ p, f p q = 50000 * m) :
    (∑ p, f p q * f p q) * (1 / 50000) - m * m = (∑ p, (f p q - m) * (f p q - m)) * (1 / 50000) := by
  have h1 : ∀ p, (f p q - m) * (f p q - m) = f p q * f p q - 2 * m * f p q + m * m := fun p => by ring
  simp only [h1]
  rw [Finset.sum_add_distrib, Finset.sum_sub_distrib, ← Finset.mul_sum, Finset.sum_const, Finset.card_univ,
    Fintype.card_fin, hm, nsmul_eq_mul]
  push_cast
  ring

/-- On real entries the two variances are one row. -/
private theorem varK_eq_varR {o : Mat 50000 128} (ho : RealM o) : varK o = varR o := by
  obtain ⟨f, rfl⟩ := exists_real ho
  funext q
  rw [varK_coe, varR_coe]
  exact congrArg Real.toEReal (var_real f q _ (by ring))

/-! ### Every stage keeps real values real -/

private theorem mean_real {o : Mat 50000 128} (ho : RealM o) : RealR (mean o) := by
  obtain ⟨f, rfl⟩ := exists_real ho
  intro q
  rw [mean_coe]
  exact IsReal.coe _

/-- The mean of the squared deviations is a non-negative real. -/
private theorem varR_nonneg {o : Mat 50000 128} (ho : RealM o) (q : Fin 128) : ∃ r : ℝ, 0 ≤ r ∧ varR o q = (r : EReal) := by
  obtain ⟨f, rfl⟩ := exists_real ho
  refine ⟨_, ?_, varR_coe f q⟩
  exact mul_nonneg (Finset.sum_nonneg fun p _ => mul_self_nonneg _) (by norm_num)

/-- The inverse root of a non-negative real plus ε is real: the argument is positive. -/
private theorem rsqrt_real {v : EReal} (hv : ∃ r : ℝ, 0 ≤ r ∧ v = (r : EReal)) : IsReal (Ideal.rsqrt (v + eps32)) := by
  obtain ⟨r, hr, rfl⟩ := hv
  obtain ⟨e, he, hE⟩ := eps32_pos
  have hpos : 0 < r + e := by linarith
  rw [hE, ← EReal.coe_add, Ideal.rsqrt_coe, if_neg (not_lt.mpr hpos.le), if_neg hpos.ne']
  exact IsReal.coe _

private theorem bnz_real {o mu va g be : EReal} (ho : IsReal o) (hmu : IsReal mu) (hva : ∃ r : ℝ, 0 ≤ r ∧ va = (r : EReal))
    (hg : IsReal g) (hbe : IsReal be) : IsReal (bnz o mu va g be) :=
  (((ho.sub hmu).mul (rsqrt_real hva)).mul hg).add hbe

private theorem swish_real {z : EReal} (hz : IsReal z) : IsReal (swish z) := by
  obtain ⟨r, rfl⟩ := hz
  rw [swish, Ideal.logistic_coe]
  exact (IsReal.coe _).mul (IsReal.coe _)

theorem one32_real : IsReal one32 := ⟨1, one32_eq⟩
theorem resid_real {agg x : Mat 50000 128} {e : EReal} (ha : RealM agg) (hx : RealM x) (he : IsReal e) : RealM (resid agg x e) :=
  fun p q => (ha p q).add ((one32_real.add he).mul (hx p q))

/-- On real operands the two variances agree, so the two layers are one function. -/
theorem layer_eq {h : Mat 50000 128} {W : Mat 128 128} {b : Row 128} (g be : Row 128) (hh : RealM h) (hW : RealM W) (hb : RealR b) :
    layerK h W b g be = layerR h W b g be := by
  rw [layerK, layerR, varK_eq_varR (lin_real hh hW hb)]

/-- A layer keeps real values real. -/
theorem layerR_real {h : Mat 50000 128} {W : Mat 128 128} {b g be : Row 128} (hh : RealM h) (hW : RealM W) (hb : RealR b)
    (hg : RealR g) (hbe : RealR be) : RealM (layerR h W b g be) := by
  intro p q
  have ho := lin_real hh hW hb
  show IsReal (swish (bnz (lin h W b p q) (mean (lin h W b) q) (varR (lin h W b) q) (g q) (be q)))
  exact swish_real (bnz_real (ho p q) (mean_real ho q) (varR_nonneg ho q) (hg q) (hbe q))

end Gin

end
-- ==== Proof.KForms.lean ====
/-
  The layer's stages as functions of whole arrays, index by index.

  The kernel keeps the node features as a [50000, 128] array and every per-column quantity (bias, column sums, mean,
  variance, scale, shift) as a [1, 128] array. Each stage below is the array the stage leaves, read at an index:
  row i₀, column i₁ of a matrix; column j₁ of a one-row array. Read at (p, q) they are the entrywise
  specification's functions of the curried operands.
-/
import Idealize.ShloMosaic.Lib.ValueIdx
import proofs.«137879_j90031104459187_1_alg».proof.Proof.Spec

noncomputable section

open scoped BigOperators

namespace Gin.Arr

open Idealize.ShloMosaic Idealize.ShloMosaic.ValueIdx

abbrev A2 (a b : ℕ) := (⟨2, ![a, b]⟩ : Shape).Idx → EReal
abbrev A1 (a : ℕ) := (⟨1, ![a]⟩ : Shape).Idx → EReal

/-- A matrix array as a function of its row and column. -/
def cur {a b : ℕ} (v : A2 a b) : Gin.Mat a b := fun p q => v (ix2 p q)
/-- A one-row array as a function of its column. -/
def row {b : ℕ} (v : A2 1 b) : Gin.Row b := fun q => v (ix2 0 q)
/-- A vector as a function of its position. -/
def vec {b : ℕ} (v : A1 b) : Gin.Row b := fun q => v (ix1 q)

theorem eq_of_cur {a b : ℕ} (v : A2 a b) (f : Gin.Mat a b) (h : cur v = f) : v = fun i => f (i 0) (i 1) := by
  funext i; rw [← h]; exact congrArg v (eq_ix2 i)

def resid (agg x : A2 50000 128) (e : A2 1 1) : A2 50000 128 := fun i => agg i + (Gin.one32 + e (ix2 0 0)) * x i
def lin (h : A2 50000 128) (W : A2 128 128) (b : A2 1 128) : A2 50000 128 :=
  fun i => (∑ k : Fin 128, h (ix2 (i 0) k) * W (ix2 k (i 1))) + b (ix2 0 (i 1))
def colSum (o : A2 50000 128) : A2 1 128 := fun j => ∑ p : Fin 50000, o (ix2 p (j 1))
def colSumSq (o : A2 50000 128) : A2 1 128 := fun j => ∑ p : Fin 50000, o (ix2 p (j 1)) * o (ix2 p (j 1))
def bnSwish (o : A2 50000 128) (mu va g be : A2 1 128) : A2 50000 128 :=
  fun i => Gin.swish (Gin.bnz (o i) (mu (ix2 0 (i 1))) (va (ix2 0 (i 1))) (g (ix2 0 (i 1))) (be (ix2 0 (i 1))))

theorem cur_resid (agg x : A2 50000 128) (e : A2 1 1) : cur (resid agg x e) = Gin.resid (cur agg) (cur x) (e (ix2 0 0)) := rfl
theorem cur_lin (h : A2 50000 128) (W : A2 128 128) (b : A2 1 128) : cur (lin h W b) = Gin.lin (cur h) (cur W) (row b) := rfl
theorem row_colSum (o : A2 50000 128) : row (colSum o) = Gin.colSum (cur o) := rfl
theorem row_colSumSq (o : A2 50000 128) : row (colSumSq o) = Gin.colSumSq (cur o) := rfl
theorem cur_bnSwish (o : A2 50000 128) (mu va g be : A2 1 128) :
    cur (bnSwish o mu va g be) = Gin.bnSwish (cur o) (row mu) (row va) (row g) (row be) := rfl

end Gin.Arr

end
-- ==== Proof.KRegion0.lean ====
/-
  The first launch: the aggregate plus (1 + e) times the features, tile by tile.

  Each of the 25 grid points handles 2000 consecutive rows. Its body adds, entry by entry, the aggregate's tile to the
  features' tile scaled by 1 + e, where e is the one entry of a [1,1] array. So the output array, once every tile is
  written back, is that same entrywise expression of the whole arrays.
-/
import proofs.«137879_j90031104459187_1_alg».proof.Proof.Gen.KernelIdeal.Frame
import proofs.«137879_j90031104459187_1_alg».proof.Proof.KForms
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (V : (c : Dev nD) → (b : Ref sig .tc) → Buf (Elt Ideal) ((c : Thread nD τ).loc b))

/-- The offsets of a whole-tile access, however the two zeros are spelt. -/
private theorem zero_offsets : (![0, 0] : Fin 2 → Nat) = fun _ => 0 := funext fun a => by fin_cases a <;> rfl

/-- Which tile each operand is on at grid point t: tile (t, 0) of the aggregate, of the features and of the output
    (rows 2000·t … 2000·t + 1999, all 128 columns), and the one tile (0, 0) of the [1,1] array, at each of the 25 points. -/
private theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's arithmetic at entry (r, q) of a tile: the aggregate's entry plus (1 + e) times the features' entry, where
    e is the one entry of the [1,1] operand, broadcast over the tile, and 1 is the value of the body's single-precision
    word for one. -/
private theorem body_entry (e : Vec Ideal S1x1 .f32) (a x : Vec Ideal S2000x128 .f32) (r : Fin 2000) (q : Fin 128) :
    k0_pay1 e a x (ix2 r q) = a (ix2 r q) + (Gin.one32 + e (ix2 0 0)) * x (ix2 r q) := by
  unfold k0_pay1 Gin.one32
  simp only [shapeCast_self]
  rw [addf_apply, mulf_apply]
  rw [broadcastTo_apply _ broadcasts_S1x1_S2000x128 (ix2 r q) (ix2 0 0) (fun a => by
    match a with
    | ⟨0, _⟩ => rfl
    | ⟨1, _⟩ => rfl)]
  rfl

/-- The aggregate's tile at point t is the aggregate read at the output tile's own rows and columns: entry y of a tile
    sits at (tile index) × (tile size) + y on each axis, and both tiles have index (t, 0). -/
private theorem aggregate_tile (c : Dev nD) (t : Fin cfg0.N) (y : S2000x128.Idx) :
    (iblk0 V c 0 t : Vec Ideal S2000x128 .f32) y
      = (V c main_v12 : S50000x128.Idx → EReal) (((cfg0.win 3).blk t).view.emb y) := by
  obtain ⟨e0, e1, e2, e3, e4, e5, e6, e7⟩ := tile_index t
  show V c main_v12 (((cfg0.win 0).blk t).view.emb y) = V c main_v12 (((cfg0.win 3).blk t).view.emb y)
  refine congrArg (V c main_v12) (funext fun a => Fin.ext ?_)
  match a with
  | ⟨0, _⟩ => show win0_0.index t (0 : Fin 2) * 2000 + 1 * (y 0).val = win0_3.index t (0 : Fin 2) * 2000 + 1 * (y 0).val; omega
  | ⟨1, _⟩ => show win0_0.index t (1 : Fin 2) * 128 + 1 * (y 1).val = win0_3.index t (1 : Fin 2) * 128 + 1 * (y 1).val; omega

/-- The features' tile at point t is the features read at the output tile's own rows and columns, for the same reason. -/
private theorem features_tile (c : Dev nD) (t : Fin cfg0.N) (y : S2000x128.Idx) :
    (iblk0 V c 1 t : Vec Ideal S2000x128 .f32) y
      = (V c main_arg0 : S50000x128.Idx → EReal) (((cfg0.win 3).blk t).view.emb y) := by
  obtain ⟨e0, e1, e2, e3, e4, e5, e6, e7⟩ := tile_index t
  show V c main_arg0 (((cfg0.win 1).blk t).view.emb y) = V c main_arg0 (((cfg0.win 3).blk t).view.emb y)
  refine congrArg (V c main_arg0) (funext fun a => Fin.ext ?_)
  match a with
  | ⟨0, _⟩ => show win0_1.index t (0 : Fin 2) * 2000 + 1 * (y 0).val = win0_3.index t (0 : Fin 2) * 2000 + 1 * (y 0).val; omega
  | ⟨1, _⟩ => show win0_1.index t (1 : Fin 2) * 128 + 1 * (y 1).val = win0_3.index t (1 : Fin 2) * 128 + 1 * (y 1).val; omega

/-- The [1,1] array's tile at every point is the array itself: its one entry sits at 0 × 1 + 0 on each axis. -/
private theorem scale_tile (c : Dev nD) (t : Fin cfg0.N) :
    (iblk0 V c 2 t : Vec Ideal S1x1 .f32) (ix2 0 0) = (V c main_v13 : S1x1.Idx → EReal) (ix2 0 0) := by
  obtain ⟨e0, e1, e2, e3, e4, e5, e6, e7⟩ := tile_index t
  show V c main_v13 (((cfg0.win 2).blk t).view.emb (ix2 0 0)) = V c main_v13 (ix2 0 0)
  refine congrArg (V c main_v13) (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- What point t writes back is tile t of the whole-array expression: the body's one store fills the tile with its
    arithmetic of the three input tiles, and each input tile is its array read at the output tile's position. -/
private theorem written_tile (c : Dev nD) (t : Fin cfg0.N) :
    (dat0 (F := Ideal) V c).flushed 3 t
      = ((cfg0.win 3).blk t).view.read (Elt Ideal) (Gin.Arr.resid (V c main_v12) (V c main_arg0) (V c main_v13)) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S1x1) zero_offsets]
  funext y
  obtain ⟨r, q, rfl⟩ : ∃ (r : Fin 2000) (q : Fin 128), y = ix2 r q := ⟨y 0, y 1, eq_ix2 y⟩
  show k0_pay1 (iblk0 V c 2 t) (iblk0 V c 0 t) (iblk0 V c 1 t) (ix2 r q)
      = Gin.Arr.resid (V c main_v12) (V c main_arg0) (V c main_v13) (((cfg0.win 3).blk t).view.emb (ix2 r q))
  refine (body_entry (iblk0 V c 2 t) (iblk0 V c 0 t) (iblk0 V c 1 t) r q).trans ?_
  rw [aggregate_tile V c t (ix2 r q), features_tile V c t (ix2 r q), scale_tile V c t]
  rfl

/-- An entry of the output array is in point t's tile iff, on each axis, its coordinate lies in the tile's range. -/
private theorem mem_tile (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v14).slice (win0_3.rect t)).set ↔ _
  rw [View.set_slice_whole, Rect.mem_set_unit]
  exact Iff.rfl

/-- The 25 tiles cover the output: row p lies in the tile of point p / 2000, and every tile has all 128 columns. -/
private theorem tiles_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1, e2, e3, e4, e5, e6, e7⟩ := tile_index t
  have ht : t.val = (i 0).val / 2000 := rfl
  refine ⟨t, flush0_3 t, ?_⟩
  rw [mem_tile]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- After the first launch the output array is the aggregate plus (1 + e) times the features, entry by entry. -/
theorem region0 (c : Dev nD) :
    ((dat0 (F := Ideal) V c).arrAt 3 cfg0.N : Gin.Arr.A2 50000 128)
      = Gin.Arr.resid (V c main_v12) (V c main_arg0) (V c main_v13) :=
  (dat0 (F := Ideal) V c).arrAt_eq_of_cover 3 (Gin.Arr.resid (V c main_v12) (V c main_arg0) (V c main_v13))
    (fun t _ => written_tile V c t) tiles_cover

end Cert.KernelIdeal.KVal

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibColSum.lean ====
/-
  A sum down the columns of a two-dimensional array, read at a column, and a long sum cut into tiles.

  Reducing an [m, n] array over its FIRST axis leaves an [n] array; at column q the kernel's vector reduction from the
  zero accumulator is the plain sum of the column's m entries, and the host's reduction is its initial value plus that
  sum.  A sum over N = T·R consecutive positions is the sum over the T tiles of the sum over the R positions inside a
  tile.  Stated for any extents.
-/
import Idealize.ShloMosaic.Lib.ValueIdx
import Idealize.ShloMosaic.PureOps.Ideal.Laws

noncomputable section

open scoped BigOperators

namespace ColSum

open Idealize.ShloMosaic Idealize.ShloMosaic.ValueIdx

variable {m n : Nat}

/-- The reduced index q with row k put back is (k, q). -/
theorem lift_ix2 (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

/-- The kernel's sum over the first axis from the zero word, at column q: the sum of the column. -/
theorem multiReduction_apply {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.add.neutral φ hφ) (q : Fin n) :
    multiReduction .add [0] (⟨1, ![n]⟩ : Shape) src acc h hφ hacc (ix1 q) = ∑ k : Fin m, src (ix2 k q) := by
  refine (Ideal.multiReduction_add_single src acc h hφ hacc (ix1 q)).trans ?_
  exact Finset.sum_congr rfl fun k _ => congrArg src (lift_ix2 h q k)

/-- The host's sum over the first axis, at column q: the initial value plus the sum of the column. -/
theorem hostReduceAdd_apply (h' : (⟨2, ![m, n]⟩ : Shape).ReducesTo [0] (⟨1, ![n]⟩ : Shape))
    (h : (⟨2, ![m, n]⟩ : Shape).Reduces [0] (⟨1, ![n]⟩ : Shape)) (x : (⟨2, ![m, n]⟩ : Shape).Idx → EReal) (init : EReal)
    (q : Fin n) : Ideal.hostReduceAdd h' x init (ix1 q) = init + ∑ k : Fin m, x (ix2 k q) := by
  refine (Ideal.hostReduceAdd_single h' h x init (ix1 q)).trans ?_
  exact congrArg (init + ·) (Finset.sum_congr rfl fun k _ => congrArg x (lift_ix2 h q k))

/-- Position r of tile t, among N = T·R positions. -/
def tilePos {T R N : ℕ} (hN : T * R = N) (t : Fin T) (r : Fin R) : Fin N :=
  ⟨R * t.val + r.val, by
    have h1 := t.isLt; have h2 := r.isLt
    calc R * t.val + r.val < R * t.val + R := by omega
      _ = R * (t.val + 1) := by ring
      _ ≤ R * T := Nat.mul_le_mul_left R h1
      _ = N := by rw [Nat.mul_comm]; exact hN⟩

/-- A sum over N = T·R positions, tile by tile. -/
theorem sum_tiles {M : Type*} [AddCommMonoid M] {T R N : ℕ} (hN : T * R = N) (f : Fin N → M) :
    ∑ p : Fin N, f p = ∑ t : Fin T, ∑ r : Fin R, f (tilePos hN t r) := by
  subst hN
  rw [← Equiv.sum_comp finProdFinEquiv f, Fintype.sum_prod_type]
  refine Finset.sum_congr rfl fun t _ => Finset.sum_congr rfl fun r _ => congrArg f (Fin.ext ?_)
  show r.val + R * t.val = R * t.val + r.val
  omega

end ColSum

end
-- ==== Proof.KRegion1.lean ====
/-
  The second launch: the linear map of a 2000-row tile, and the running column sums of its result and of its squares.

  At grid point t the body multiplies rows 2000t … 2000t+1999 of the features by the weight matrix and adds the bias row;
  that tile of the result is written back at once. Two one-row accumulators are zeroed at the first point and at every
  point gain the tile's column sums, of the entries and of their squares; they are written back after the last point.
  So the three output arrays are: the linear map of the whole feature array; its column sums over all 50000 rows; and
  the column sums of its squares — the 25 partial sums of 2000 rows regrouped into one sum (addition of extended reals is
  commutative and associative, and 0 is neutral).
-/
import proofs.«137879_j90031104459187_1_alg».proof.Proof.Gen.KernelIdeal.Frame
import proofs.«137879_j90031104459187_1_alg».proof.Proof.KForms
import Idealize.ShloMosaic.Lib.Pipeline.Value
import Idealize.ShloMosaic.Lib.ValueLayout
import Idealize.ShloMosaic.PureOps.Ideal.Laws
import proofs.«137879_j90031104459187_1_alg».proof.Proof.LibPlainDot
import proofs.«137879_j90031104459187_1_alg».proof.Proof.LibColSum

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (V : (c : Dev nD) → (b : Ref sig .tc) → Buf (Elt Ideal) ((c : Thread nD τ).loc b))

/-! ## What each case of the body leaves in each output's buffer -/

section Pieces
variable {F : FTy → Type} [FloatOps F]

private theorem hz : (![0, 0] : Fin 2 → Nat) = fun _ => 0 := funext fun a => by fin_cases a <;> rfl

/-- At a later point the tile's buffer holds the linear map of the tile. -/
private theorem piece_B_3 (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond1_0 i) (x0 : Vec F S2000x128 .f32) (x1 : Vec F S128x128 .f32) (x2 : Vec F S1x128 .f32) (xo4 xo5 : Vec F S1x128 .f32) :
    out1_B_3 c i a1 h1 a2 h2 a3 h3 a4 h4 a5 h5 a6 h6 hc x0 x1 x2 xo4 xo5 = k1_pay3 x0 x1 x2 := by
  unfold out1_B_3
  rw [View.read_writes_eq_canon _ _ _ (cover1_B_3 c i a1 h1 a2 h2 a3 h3 a4 h4 a5 h5 a6 h6 hc x0 x1 x2 xo4 xo5)]
  unfold kernelRun1_B
  dsimp only
  sl_unfold_words
  rw [View.canon_unit_zero hz]
  simp only [View.readAt_eq_ld, h1.read_unread, h2.read_unread, h3.read_unread, View.ld_unit_zero (S := S2000x128) hz,
    View.ld_unit_zero (S := S128x128) hz, View.ld_unit_zero (S := S1x128) hz]

/-- At a later point the first accumulator gains the tile's column sums. -/
private theorem piece_B_4 (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond1_0 i) (x0 : Vec F S2000x128 .f32) (x1 : Vec F S128x128 .f32) (x2 : Vec F S1x128 .f32) (xo4 xo5 : Vec F S1x128 .f32) :
    out1_B_4 c i a1 h1 a2 h2 a3 h3 a4 h4 a5 h5 a6 h6 hc x0 x1 x2 xo4 xo5 = k1_pay4 x0 x1 x2 xo4 := by
  unfold out1_B_4
  rw [View.read_writes_eq_canon _ _ _ (cover1_B_4 c i a1 h1 a2 h2 a3 h3 a4 h4 a5 h5 a6 h6 hc x0 x1 x2 xo4 xo5)]
  unfold kernelRun1_B
  dsimp only
  sl_unfold_words
  rw [View.canon_unit_zero hz]
  simp only [View.readAt_eq_ld, h1.read_unread, h2.read_unread, h3.read_unread, h5.read_unread, h6.read_unread,
    View.ld_unit_zero (S := S2000x128) hz, View.ld_unit_zero (S := S128x128) hz, View.ld_unit_zero (S := S1x128) hz]

/-- At a later point the second accumulator gains the column sums of the tile's squares. -/
private theorem piece_B_5 (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond1_0 i) (x0 : Vec F S2000x128 .f32) (x1 : Vec F S128x128 .f32) (x2 : Vec F S1x128 .f32) (xo4 xo5 : Vec F S1x128 .f32) :
    out1_B_5 c i a1 h1 a2 h2 a3 h3 a4 h4 a5 h5 a6 h6 hc x0 x1 x2 xo4 xo5 = k1_pay5 x0 x1 x2 xo5 := by
  unfold out1_B_5
  rw [View.read_writes_eq_canon _ _ _ (cover1_B_5 c i a1 h1 a2 h2 a3 h3 a4 h4 a5 h5 a6 h6 hc x0 x1 x2 xo4 xo5)]
  unfold kernelRun1_B
  dsimp only
  sl_unfold_words
  rw [View.canon_unit_zero hz]
  simp only [View.readAt_eq_ld, h1.read_unread, h2.read_unread, h3.read_unread, h5.read_unread, h6.read_unread,
    View.ld_unit_zero (S := S2000x128) hz, View.ld_unit_zero (S := S128x128) hz, View.ld_unit_zero (S := S1x128) hz]

/-- At the first point the tile's buffer holds the linear map of the tile. -/
private theorem piece_A_3 (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond1_0 i) (x0 : Vec F S2000x128 .f32) (x1 : Vec F S128x128 .f32) (x2 : Vec F S1x128 .f32) :
    out1_A_3 c i a1 h1 a2 h2 a3 h3 a4 h4 a5 h5 a6 h6 hc x0 x1 x2 = k1_pay3 x0 x1 x2 := by
  unfold out1_A_3
  rw [View.read_writes_eq_canon _ _ _ (cover1_A_3 c i a1 h1 a2 h2 a3 h3 a4 h4 a5 h5 a6 h6 hc x0 x1 x2)]
  unfold kernelRun1_A
  dsimp only
  sl_unfold_words
  rw [View.canon_unit_zero hz]
  simp only [View.readAt_eq_ld, h1.read_unread, h2.read_unread, h3.read_unread, View.ld_unit_zero (S := S2000x128) hz,
    View.ld_unit_zero (S := S128x128) hz, View.ld_unit_zero (S := S1x128) hz]

/-- At the first point the first accumulator is zeroed and then gains the tile's column sums. -/
private theorem piece_A_4 (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond1_0 i) (x0 : Vec F S2000x128 .f32) (x1 : Vec F S128x128 .f32) (x2 : Vec F S1x128 .f32) :
    out1_A_4 c i a1 h1 a2 h2 a3 h3 a4 h4 a5 h5 a6 h6 hc x0 x1 x2 = k1_pay4 x0 x1 x2 k1_pay1 := by
  unfold out1_A_4
  rw [View.read_writes_eq_canon _ _ _ (cover1_A_4 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S2000x128) hz,
    View.ld_unit_zero (S := S128x128) hz, View.ld_unit_zero (S := S1x128) hz]

/-- At the first point the second accumulator is zeroed and then gains the column sums of the tile's squares. -/
private theorem piece_A_5 (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond1_0 i) (x0 : Vec F S2000x128 .f32) (x1 : Vec F S128x128 .f32) (x2 : Vec F S1x128 .f32) :
    out1_A_5 c i a1 h1 a2 h2 a3 h3 a4 h4 a5 h5 a6 h6 hc x0 x1 x2 = k1_pay5 x0 x1 x2 k1_pay2 := by
  unfold out1_A_5
  rw [View.read_writes_eq_canon _ _ _ (cover1_A_5 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S2000x128) hz,
    View.ld_unit_zero (S := S128x128) hz, View.ld_unit_zero (S := S1x128) hz]

end Pieces

/-! ## The body's arithmetic at an entry, over the extended reals -/

section Payloads

/-- The dimension numbers of the tile's product are those of a plain matrix product. -/
private theorem plain : PlainDot.IsPlain dot_S2000x128_S128x128_S2000x128_1_0_0_1_n_n := ⟨rfl, rfl, rfl, rfl, rfl, rfl⟩

/-- The tile's linear map at row r, column q: the row of the tile against the column of the weights, plus the bias. -/
private theorem pay3_apply (x : Vec Ideal S2000x128 .f32) (W : Vec Ideal S128x128 .f32) (b : Vec Ideal S1x128 .f32)
    (r : Fin 2000) (q : Fin 128) :
    (k1_pay3 x W b (ix2 r q) : EReal) = (∑ k : Fin 128, (x (ix2 r k) : EReal) * W (ix2 k q)) + b (ix2 0 q) := by
  unfold k1_pay3
  refine (addf_apply _ _ (ix2 r q)).trans ?_
  refine congrArg₂ (· + ·) ?_ ?_
  · refine (PlainDot.matmul_zero_apply plain none _ _ r q).trans ?_
    refine Finset.sum_congr rfl fun k _ => ?_
    rw [truncf_apply, truncf_apply, shapeCast_self]
  · refine (broadcastTo_1b_ab_apply _ _ r q).trans ?_
    rw [shapeCast_self]

/-- The first accumulator's update at column q: what it held plus the column sum of the tile's linear map. -/
private theorem pay4_apply (x : Vec Ideal S2000x128 .f32) (W : Vec Ideal S128x128 .f32) (b : Vec Ideal S1x128 .f32)
    (acc : Vec Ideal S1x128 .f32) (q : Fin 128) :
    (k1_pay4 x W b acc (ix2 0 q) : EReal) = acc (ix2 0 q) + ∑ r : Fin 2000, (k1_pay3 x W b (ix2 r q) : EReal) := by
  unfold k1_pay4
  refine (addf_apply _ _ (ix2 0 q)).trans ?_
  refine congrArg₂ (· + ·) ?_ ?_
  · rw [shapeCast_self]
  · refine (shapeCast_a_1a_apply _ _ 0 q).trans ?_
    exact ColSum.multiReduction_apply _ _ _ _ _ q

/-- The second accumulator's update at column q: what it held plus the column sum of the squares. -/
private theorem pay5_apply (x : Vec Ideal S2000x128 .f32) (W : Vec Ideal S128x128 .f32) (b : Vec Ideal S1x128 .f32)
    (acc : Vec Ideal S1x128 .f32) (q : Fin 128) :
    (k1_pay5 x W b acc (ix2 0 q) : EReal)
      = acc (ix2 0 q) + ∑ r : Fin 2000, (k1_pay3 x W b (ix2 r q) : EReal) * k1_pay3 x W b (ix2 r q) := by
  unfold k1_pay5
  refine (addf_apply _ _ (ix2 0 q)).trans ?_
  refine congrArg₂ (· + ·) ?_ ?_
  · rw [shapeCast_self]
  · refine (shapeCast_a_1a_apply _ _ 0 q).trans ?_
    exact ColSum.multiReduction_apply _ _ _ _ _ q

/-- The row the reset stores is zero at every column. -/
private theorem pay1_apply (j : S1x128.Idx) : ((k1_pay1 (F := Ideal)) j : EReal) = 0 := Ideal.ofBits_zero_f32
private theorem pay2_apply (j : S1x128.Idx) : ((k1_pay2 (F := Ideal)) j : EReal) = 0 := Ideal.ofBits_zero_f32

end Payloads

/-! ## The blocks the body reads -/

section Blocks

/-- The feature array, the weights and the bias row as the launch finds them. -/
private abbrev xarr (c : Dev nD) : Gin.Arr.A2 50000 128 := V c main_v14
private abbrev warr (c : Dev nD) : Gin.Arr.A2 128 128 := V c main_arg2
private abbrev barr (c : Dev nD) : Gin.Arr.A2 1 128 := V c main_v15

/-- The feature tile, the weights and the bias row as the body reads them at point t. -/
private abbrev xblk (c : Dev nD) (t : Fin cfg1.N) : Vec Ideal S2000x128 .f32 := iblk1 V c 0 t
private abbrev wblk (c : Dev nD) (t : Fin cfg1.N) : Vec Ideal S128x128 .f32 := iblk1 V c 1 t
private abbrev bblk (c : Dev nD) (t : Fin cfg1.N) : Vec Ideal S1x128 .f32 := iblk1 V c 2 t

/-- Where each window's block sits at point t: the features' and the result's tile is tile t; every other block is
    the one block of its array. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row r of the feature tile at point t is row 2000 t + r of the feature array. -/
private theorem xblk_apply (c : Dev nD) (t : Fin cfg1.N) (r : Fin 2000) (k : Fin 128) (hr : 2000 * t.val + r.val < 50000) :
    (xblk V c t (ix2 r k) : EReal) = xarr V c (ix2 ⟨2000 * t.val + r.val, hr⟩ k) := by
  show V c main_v14 (((cfg1.win 0).blk t).view.emb (ix2 r k)) = V c main_v14 _
  refine congrArg (V c main_v14) ?_
  obtain ⟨e0, e1, -⟩ := idx_facts t
  funext a; apply Fin.ext
  match a with
  | ⟨0, _⟩ => show win1_0.index t (0 : Fin 2) * 2000 + 1 * r.val = 2000 * t.val + r.val; rw [e0]; omega
  | ⟨1, _⟩ => show win1_0.index t (1 : Fin 2) * 128 + 1 * k.val = k.val; rw [e1]; omega

/-- The weights' block is the whole weight matrix. -/
private theorem wblk_eq (c : Dev nD) (t : Fin cfg1.N) : wblk V c t = warr V c := by
  funext y
  show V c main_arg2 (((cfg1.win 1).blk t).view.emb y) = V c main_arg2 y
  refine congrArg (V c main_arg2) ?_
  obtain ⟨-, -, e0, e1, -⟩ := idx_facts t
  funext a; apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The bias' block is the whole bias row. -/
private theorem bblk_eq (c : Dev nD) (t : Fin cfg1.N) : bblk V c t = barr V c := by
  funext y
  show V c main_v15 (((cfg1.win 2).blk t).view.emb y) = V c main_v15 y
  refine congrArg (V c main_v15) ?_
  obtain ⟨-, -, -, -, e0, e1, -⟩ := idx_facts t
  funext a; apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

end Blocks

/-! ## The outputs point by point -/

section Accumulate

/-- The linear map of the whole feature array. -/
private abbrev linArr (c : Dev nD) : Gin.Arr.A2 50000 128 := Gin.Arr.lin (xarr V c) (warr V c) (barr V c)

/-- The body's linear map of tile t, at row r, is the whole array's linear map at row 2000 t + r. -/
private theorem tile_apply (c : Dev nD) (t : Fin cfg1.N) (r : Fin 2000) (q : Fin 128) (hr : 2000 * t.val + r.val < 50000) :
    (k1_pay3 (xblk V c t) (wblk V c t) (bblk V c t) (ix2 r q) : EReal)
      = linArr V c (ix2 ⟨2000 * t.val + r.val, hr⟩ q) := by
  refine (pay3_apply (xblk V c t) (wblk V c t) (bblk V c t) r q).trans ?_
  rw [wblk_eq, bblk_eq]
  show _ = (∑ k : Fin 128, xarr V c (ix2 ⟨2000 * t.val + r.val, hr⟩ k) * warr V c (ix2 k q)) + barr V c (ix2 0 q)
  refine congrArg₂ (· + ·) (Finset.sum_congr rfl fun k _ => ?_) rfl
  rw [xblk_apply V c t r k hr]

/-- Every point leaves the linear map of its tile in the tile's buffer. -/
private theorem out3_eq (c : Dev nD) (t : Fin cfg1.N) :
    (outsAt1 V c t.val t.isLt).1 = k1_pay3 (xblk V c t) (wblk V c t) (bblk V c t) := by
  by_cases h0 : t.val % 25 = 0
  · rw [outsAt1_A V c t h0]; dsimp only
    exact piece_A_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (xblk V c t) (wblk V c t) (bblk V c t)
  · rw [outsAt1_B V c t h0]; dsimp only
    exact piece_B_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (xblk V c t) (wblk V c t) (bblk V c t)
      (outsAt1 V c (t.val - 1) (Nat.lt_of_le_of_lt (Nat.sub_le _ _) t.isLt)).2.1 (outsAt1 V c (t.val - 1) (Nat.lt_of_le_of_lt (Nat.sub_le _ _) t.isLt)).2.2

/-- The first point zeroes the first accumulator and adds its tile's column sums. -/
private theorem acc4_first (c : Dev nD) (t : Fin cfg1.N) (h0 : t.val % 25 = 0) :
    (outsAt1 V c t.val t.isLt).2.1 = k1_pay4 (xblk V c t) (wblk V c t) (bblk V c t) (k1_pay1 (F := Ideal)) := by
  rw [outsAt1_A V c t h0]; dsimp only
  exact piece_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (xblk V c t) (wblk V c t) (bblk V c t)

/-- A later point adds its tile's column sums to what the point before left. -/
private theorem acc4_step (c : Dev nD) (t : Fin cfg1.N) (h0 : ¬t.val % 25 = 0) :
    (outsAt1 V c t.val t.isLt).2.1
      = k1_pay4 (xblk V c t) (wblk V c t) (bblk V c t) (outsAt1 V c (t.val - 1) (Nat.lt_of_le_of_lt (Nat.sub_le _ _) t.isLt)).2.1 := by
  rw [outsAt1_B V c t h0]; dsimp only
  exact piece_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (xblk V c t) (wblk V c t) (bblk V c t)
    (outsAt1 V c (t.val - 1) (Nat.lt_of_le_of_lt (Nat.sub_le _ _) t.isLt)).2.1 (outsAt1 V c (t.val - 1) (Nat.lt_of_le_of_lt (Nat.sub_le _ _) t.isLt)).2.2

/-- The first point zeroes the second accumulator and adds the column sums of its tile's squares. -/
private theorem acc5_first (c : Dev nD) (t : Fin cfg1.N) (h0 : t.val % 25 = 0) :
    (outsAt1 V c t.val t.isLt).2.2 = k1_pay5 (xblk V c t) (wblk V c t) (bblk V c t) (k1_pay2 (F := Ideal)) := by
  rw [outsAt1_A V c t h0]; dsimp only
  exact piece_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (xblk V c t) (wblk V c t) (bblk V c t)

/-- A later point adds the column sums of its tile's squares to what the point before left. -/
private theorem acc5_step (c : Dev nD) (t : Fin cfg1.N) (h0 : ¬t.val % 25 = 0) :
    (outsAt1 V c t.val t.isLt).2.2
      = k1_pay5 (xblk V c t) (wblk V c t) (bblk V c t) (outsAt1 V c (t.val - 1) (Nat.lt_of_le_of_lt (Nat.sub_le _ _) t.isLt)).2.2 := by
  rw [outsAt1_B V c t h0]; dsimp only
  exact piece_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (xblk V c t) (wblk V c t) (bblk V c t)
    (outsAt1 V c (t.val - 1) (Nat.lt_of_le_of_lt (Nat.sub_le _ _) t.isLt)).2.1 (outsAt1 V c (t.val - 1) (Nat.lt_of_le_of_lt (Nat.sub_le _ _) t.isLt)).2.2

end Accumulate

/-! ## The accumulators after point n: the column sums over the tiles so far -/

section Sums

/-- The column sum of the linear map over the 2000 rows of tile t (zero past the last tile). -/
private def tileSum (c : Dev nD) (q : Fin 128) (t : ℕ) : EReal :=
  if h : t < 25 then
    ∑ r : Fin 2000, linArr V c (ix2 (ColSum.tilePos (T := 25) (R := 2000) (N := 50000) rfl ⟨t, h⟩ r) q)
  else 0

/-- The column sum of the squares over the rows of tile t (zero past the last tile). -/
private def tileSumSq (c : Dev nD) (q : Fin 128) (t : ℕ) : EReal :=
  if h : t < 25 then
    ∑ r : Fin 2000, linArr V c (ix2 (ColSum.tilePos (T := 25) (R := 2000) (N := 50000) rfl ⟨t, h⟩ r) q)
      * linArr V c (ix2 (ColSum.tilePos (T := 25) (R := 2000) (N := 50000) rfl ⟨t, h⟩ r) q)
  else 0

/-- The body's column sum over its tile is the array's column sum over tile t. -/
private theorem tileSum_eq (c : Dev nD) (t : Fin cfg1.N) (q : Fin 128) :
    ∑ r : Fin 2000, (k1_pay3 (xblk V c t) (wblk V c t) (bblk V c t) (ix2 r q) : EReal) = tileSum V c q t.val := by
  have hN : t.val < 25 := lt_of_lt_of_eq t.isLt (show cfg1.N = 25 from N_1)
  unfold tileSum
  rw [dif_pos hN]
  exact Finset.sum_congr rfl fun r _ => tile_apply V c t r q (by have := r.isLt; omega)

private theorem tileSumSq_eq (c : Dev nD) (t : Fin cfg1.N) (q : Fin 128) :
    ∑ r : Fin 2000, (k1_pay3 (xblk V c t) (wblk V c t) (bblk V c t) (ix2 r q) : EReal)
        * k1_pay3 (xblk V c t) (wblk V c t) (bblk V c t) (ix2 r q) = tileSumSq V c q t.val := by
  have hN : t.val < 25 := lt_of_lt_of_eq t.isLt (show cfg1.N = 25 from N_1)
  unfold tileSumSq
  rw [dif_pos hN]
  refine Finset.sum_congr rfl fun r _ => ?_
  rw [tile_apply V c t r q (by have := r.isLt; omega)]
  rfl

/-- After point n the first accumulator holds, at column q, the column sums of tiles 0 … n. -/
private theorem acc4_eq (c : Dev nD) : ∀ (n : ℕ) (h : n < cfg1.N) (q : Fin 128),
    ((outsAt1 V c n h).2.1 (ix2 0 q) : EReal) = ∑ t ∈ Finset.range (n + 1), tileSum V c q t
  | 0, h, q => by
    refine (congrFun (acc4_first V c ⟨0, h⟩ rfl) (ix2 0 q)).trans ?_
    refine (pay4_apply _ _ _ _ q).trans ?_
    rw [pay1_apply, zero_add, Finset.sum_range_one]
    exact tileSum_eq V c ⟨0, h⟩ q
  | n + 1, h, q => by
    have hN : cfg1.N = 25 := N_1
    have hB : ¬(⟨n + 1, h⟩ : Fin cfg1.N).val % 25 = 0 := by dsimp only; omega
    refine (congrFun (acc4_step V c ⟨n + 1, h⟩ hB) (ix2 0 q)).trans ?_
    refine (pay4_apply _ _ _ _ q).trans ?_
    rw [Finset.sum_range_succ _ (n + 1)]
    exact congrArg₂ (· + ·) (acc4_eq c n (Nat.lt_of_succ_lt h) q) (tileSum_eq V c ⟨n + 1, h⟩ q)

/-- After point n the second accumulator holds, at column q, the column sums of the squares over tiles 0 … n. -/
private theorem acc5_eq (c : Dev nD) : ∀ (n : ℕ) (h : n < cfg1.N) (q : Fin 128),
    ((outsAt1 V c n h).2.2 (ix2 0 q) : EReal) = ∑ t ∈ Finset.range (n + 1), tileSumSq V c q t
  | 0, h, q => by
    refine (congrFun (acc5_first V c ⟨0, h⟩ rfl) (ix2 0 q)).trans ?_
    refine (pay5_apply _ _ _ _ q).trans ?_
    rw [pay2_apply, zero_add, Finset.sum_range_one]
    exact tileSumSq_eq V c ⟨0, h⟩ q
  | n + 1, h, q => by
    have hN : cfg1.N = 25 := N_1
    have hB : ¬(⟨n + 1, h⟩ : Fin cfg1.N).val % 25 = 0 := by dsimp only; omega
    refine (congrFun (acc5_step V c ⟨n + 1, h⟩ hB) (ix2 0 q)).trans ?_
    refine (pay5_apply _ _ _ _ q).trans ?_
    rw [Finset.sum_range_succ _ (n + 1)]
    exact congrArg₂ (· + ·) (acc5_eq c n (Nat.lt_of_succ_lt h) q) (tileSumSq_eq V c ⟨n + 1, h⟩ q)

/-- The 25 tile sums are the sum over all 50000 rows. -/
private theorem tiles_total (c : Dev nD) (q : Fin 128) :
    ∑ t ∈ Finset.range 25, tileSum V c q t = ∑ p : Fin 50000, linArr V c (ix2 p q) := by
  rw [ColSum.sum_tiles (T := 25) (R := 2000) (N := 50000) rfl (fun p => linArr V c (ix2 p q)), Finset.sum_range]
  refine Finset.sum_congr rfl fun t _ => ?_
  unfold tileSum
  rw [dif_pos t.isLt]

private theorem tilesSq_total (c : Dev nD) (q : Fin 128) :
    ∑ t ∈ Finset.range 25, tileSumSq V c q t = ∑ p : Fin 50000, linArr V c (ix2 p q) * linArr V c (ix2 p q) := by
  rw [ColSum.sum_tiles (T := 25) (R := 2000) (N := 50000) rfl (fun p => linArr V c (ix2 p q) * linArr V c (ix2 p q)),
    Finset.sum_range]
  refine Finset.sum_congr rfl fun t _ => ?_
  unfold tileSumSq
  rw [dif_pos t.isLt]

end Sums

/-! ## From the points' write-backs to the three arrays -/

section Arrays

/-- What point t writes back to the result array is tile t of the linear map of the whole feature array. -/
private theorem flushed3_eq (c : Dev nD) (t : Fin cfg1.N) :
    (dat1 (F := Ideal) V c).flushed 3 t = ((cfg1.win 3).blk t).view.read (Elt Ideal) (linArr V c) := by
  show (cfg1.win 3).cut (grid1.coords t) ((dat1 V c).after 3 t) = _
  rw [after1_3, out3_eq]
  funext y
  have hN : t.val < 25 := lt_of_lt_of_eq t.isLt (show cfg1.N = 25 from N_1)
  have h0 : (y 0).val < 2000 := (y 0).isLt
  have h1 : (y 1).val < 128 := (y 1).isLt
  have ey : (cfg1.win 3).xinj (grid1.coords t) y = ix2 (⟨(y 0).val, h0⟩ : Fin 2000) (⟨(y 1).val, h1⟩ : Fin 128) := by
    funext a
    match a with
    | ⟨0, _⟩ => rfl
    | ⟨1, _⟩ => rfl
  show k1_pay3 (xblk V c t) (wblk V c t) (bblk V c t) ((cfg1.win 3).xinj (grid1.coords t) y)
    = linArr V c (((cfg1.win 3).blk t).view.emb y)
  rw [ey]
  refine (tile_apply V c t ⟨(y 0).val, h0⟩ ⟨(y 1).val, h1⟩ (by dsimp only; omega)).trans ?_
  refine congrArg (linArr V c) ?_
  obtain ⟨-, -, -, -, -, -, e0, e1, -⟩ := idx_facts t
  funext a; apply Fin.ext
  match a with
  | ⟨0, _⟩ => show 2000 * t.val + (y 0).val = win1_3.index t (0 : Fin 2) * 2000 + 1 * (y 0).val; rw [e0]; omega
  | ⟨1, _⟩ => show (y 1).val = win1_3.index t (1 : Fin 2) * 128 + 1 * (y 1).val; rw [e1]; omega

/-- An index of the result array is in tile t iff its row is one of the tile's 2000 rows. -/
private theorem mem_blk3 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v16_0).slice (win1_3.rect t)).set ↔ _
  rw [View.set_slice_whole, Rect.mem_set_unit]
  exact Iff.rfl

/-- The linear map's result array. -/
theorem region1_out (c : Dev nD) :
    ((dat1 (F := Ideal) V c).arrAt 3 cfg1.N : Gin.Arr.A2 50000 128)
      = Gin.Arr.lin (V c main_v14) (V c main_arg2) (V c main_v15) := by
  refine (dat1 (F := Ideal) V c).arrAt_eq_of_cover 3 (linArr V c) (fun t _ => flushed3_eq V c t) fun i => ?_
  have hi0 : (i 0).val < 50000 := (i 0).isLt
  have hi1 : (i 1).val < 128 := (i 1).isLt
  have ht : (i 0).val / 2000 < cfg1.N := by rw [show cfg1.N = 25 from N_1]; omega
  refine ⟨⟨(i 0).val / 2000, ht⟩, flush1_3 _, ?_⟩
  rw [mem_blk3]
  obtain ⟨-, -, -, -, -, -, e0, e1, -⟩ := idx_facts ⟨(i 0).val / 2000, ht⟩
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e0]; dsimp only; omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    rw [e1]; omega

/-- The column sums read at a column. -/
private theorem colSum_apply (o : Gin.Arr.A2 50000 128) (q : Fin 128) :
    Gin.Arr.colSum o (ix2 0 q) = ∑ p : Fin 50000, o (ix2 p q) := rfl
private theorem colSumSq_apply (o : Gin.Arr.A2 50000 128) (q : Fin 128) :
    Gin.Arr.colSumSq o (ix2 0 q) = ∑ p : Fin 50000, o (ix2 p q) * o (ix2 p q) := rfl

/-- The last point. -/
private theorem t24_lt : 24 < cfg1.N := by rw [show cfg1.N = 25 from N_1]; omega

/-- The one write-back of the first accumulator, after the last point, writes the column sums over all rows. -/
private theorem flushed4_eq (c : Dev nD) (t : Fin cfg1.N) (hf : (cfg1.win 4).flush t = true) :
    (dat1 (F := Ideal) V c).flushed 4 t
      = ((cfg1.win 4).blk t).view.read (Elt Ideal) (Gin.Arr.colSum (linArr V c)) := by
  have hN : cfg1.N = 25 := N_1
  have h24 : t.val = 24 := by have := (flush1_4 t).mp hf; have := t.isLt; omega
  have e24 : Finset.range (t.val + 1) = Finset.range 25 := by rw [h24]
  show (cfg1.win 4).cut (grid1.coords t) ((dat1 V c).after 4 t) = _
  rw [after1_4]
  generalize hG : Gin.Arr.colSum (linArr V c) = G
  funext y
  have h0 : (y 0).val < 1 := (y 0).isLt
  have h1 : (y 1).val < 128 := (y 1).isLt
  have ey : (cfg1.win 4).xinj (grid1.coords t) y = ix2 (0 : Fin 1) (⟨(y 1).val, h1⟩ : Fin 128) := by
    funext a
    match a with
    | ⟨0, _⟩ => exact Fin.ext (show (y 0).val = 0 by omega)
    | ⟨1, _⟩ => rfl
  have ee : ((cfg1.win 4).blk t).view.emb y = ix2 (0 : Fin 1) (⟨(y 1).val, h1⟩ : Fin 128) := by
    obtain ⟨-, -, -, -, -, -, -, -, e0, e1, -⟩ := idx_facts t
    funext a; apply Fin.ext
    match a with
    | ⟨0, _⟩ => show win1_4.index t (0 : Fin 2) * 1 + 1 * (y 0).val = 0; rw [e0]; omega
    | ⟨1, _⟩ => show win1_4.index t (1 : Fin 2) * 128 + 1 * (y 1).val = (y 1).val; rw [e1]; omega
  show (outsAt1 V c t.val t.isLt).2.1 ((cfg1.win 4).xinj (grid1.coords t) y)
    = G (((cfg1.win 4).blk t).view.emb y)
  rw [ey, ee, ← hG, colSum_apply]
  refine (acc4_eq V c t.val t.isLt ⟨(y 1).val, h1⟩).trans ?_
  rw [e24]
  exact tiles_total V c ⟨(y 1).val, h1⟩

/-- The one write-back of the second accumulator writes the column sums of the squares over all rows. -/
private theorem flushed5_eq (c : Dev nD) (t : Fin cfg1.N) (hf : (cfg1.win 5).flush t = true) :
    (dat1 (F := Ideal) V c).flushed 5 t
      = ((cfg1.win 5).blk t).view.read (Elt Ideal) (Gin.Arr.colSumSq (linArr V c)) := by
  have hN : cfg1.N = 25 := N_1
  have h24 : t.val = 24 := by have := (flush1_5 t).mp hf; have := t.isLt; omega
  have e24 : Finset.range (t.val + 1) = Finset.range 25 := by rw [h24]
  show (cfg1.win 5).cut (grid1.coords t) ((dat1 V c).after 5 t) = _
  rw [after1_5]
  generalize hG : Gin.Arr.colSumSq (linArr V c) = G
  funext y
  have h0 : (y 0).val < 1 := (y 0).isLt
  have h1 : (y 1).val < 128 := (y 1).isLt
  have ey : (cfg1.win 5).xinj (grid1.coords t) y = ix2 (0 : Fin 1) (⟨(y 1).val, h1⟩ : Fin 128) := by
    funext a
    match a with
    | ⟨0, _⟩ => exact Fin.ext (show (y 0).val = 0 by omega)
    | ⟨1, _⟩ => rfl
  have ee : ((cfg1.win 5).blk t).view.emb y = ix2 (0 : Fin 1) (⟨(y 1).val, h1⟩ : Fin 128) := by
    obtain ⟨-, -, -, -, -, -, -, -, -, -, e0, e1⟩ := idx_facts t
    funext a; apply Fin.ext
    match a with
    | ⟨0, _⟩ => show win1_5.index t (0 : Fin 2) * 1 + 1 * (y 0).val = 0; rw [e0]; omega
    | ⟨1, _⟩ => show win1_5.index t (1 : Fin 2) * 128 + 1 * (y 1).val = (y 1).val; rw [e1]; omega
  show (outsAt1 V c t.val t.isLt).2.2 ((cfg1.win 5).xinj (grid1.coords t) y)
    = G (((cfg1.win 5).blk t).view.emb y)
  rw [ey, ee, ← hG, colSumSq_apply]
  refine (acc5_eq V c t.val t.isLt ⟨(y 1).val, h1⟩).trans ?_
  rw [e24]
  exact tilesSq_total V c ⟨(y 1).val, h1⟩

/-- Every index of a one-row array is in the one block, whatever the point. -/
private theorem mem_blk4 (t : Fin cfg1.N) (i : S1x128.Idx) :
    i ∈ ((cfg1.win 4).blk t).view.set ↔ ∀ a : Fin 2, win1_4.index t a * S1x128.size a ≤ (i a).val
      ∧ (i a).val < win1_4.index t a * S1x128.size a + S1x128.size a := by
  show i ∈ ((View.whole main_v16_1).slice (win1_4.rect t)).set ↔ _
  rw [View.set_slice_whole, Rect.mem_set_unit]
  exact Iff.rfl

private theorem mem_blk5 (t : Fin cfg1.N) (i : S1x128.Idx) :
    i ∈ ((cfg1.win 5).blk t).view.set ↔ ∀ a : Fin 2, win1_5.index t a * S1x128.size a ≤ (i a).val
      ∧ (i a).val < win1_5.index t a * S1x128.size a + S1x128.size a := by
  show i ∈ ((View.whole main_v16_2).slice (win1_5.rect t)).set ↔ _
  rw [View.set_slice_whole, Rect.mem_set_unit]
  exact Iff.rfl

/-- The column sums of the linear map's result. -/
theorem region1_sum (c : Dev nD) :
    ((dat1 (F := Ideal) V c).arrAt 4 cfg1.N : Gin.Arr.A2 1 128)
      = Gin.Arr.colSum (Gin.Arr.lin (V c main_v14) (V c main_arg2) (V c main_v15)) := by
  refine (dat1 (F := Ideal) V c).arrAt_eq_of_cover 4 (Gin.Arr.colSum (linArr V c)) (flushed4_eq V c) fun i => ?_
  have hi0 : (i 0).val < 1 := (i 0).isLt
  have hi1 : (i 1).val < 128 := (i 1).isLt
  refine ⟨⟨24, t24_lt⟩, (flush1_4 _).mpr rfl, ?_⟩
  rw [mem_blk4]
  obtain ⟨-, -, -, -, -, -, -, -, e0, e1, -⟩ := idx_facts ⟨24, t24_lt⟩
  intro a
  match a with
  | ⟨0, _⟩ =>
    show win1_4.index ⟨24, t24_lt⟩ (0 : Fin 2) * 1 ≤ (i 0).val ∧ (i 0).val < win1_4.index ⟨24, t24_lt⟩ (0 : Fin 2) * 1 + 1
    rw [e0]; omega
  | ⟨1, _⟩ =>
    show win1_4.index ⟨24, t24_lt⟩ (1 : Fin 2) * 128 ≤ (i 1).val
      ∧ (i 1).val < win1_4.index ⟨24, t24_lt⟩ (1 : Fin 2) * 128 + 128
    rw [e1]; omega

/-- The column sums of its squares. -/
theorem region1_sq (c : Dev nD) :
    ((dat1 (F := Ideal) V c).arrAt 5 cfg1.N : Gin.Arr.A2 1 128)
      = Gin.Arr.colSumSq (Gin.Arr.lin (V c main_v14) (V c main_arg2) (V c main_v15)) := by
  refine (dat1 (F := Ideal) V c).arrAt_eq_of_cover 5 (Gin.Arr.colSumSq (linArr V c)) (flushed5_eq V c) fun i => ?_
  have hi0 : (i 0).val < 1 := (i 0).isLt
  have hi1 : (i 1).val < 128 := (i 1).isLt
  refine ⟨⟨24, t24_lt⟩, (flush1_5 _).mpr rfl, ?_⟩
  rw [mem_blk5]
  obtain ⟨-, -, -, -, -, -, -, -, -, -, e0, e1⟩ := idx_facts ⟨24, t24_lt⟩
  intro a
  match a with
  | ⟨0, _⟩ =>
    show win1_5.index ⟨24, t24_lt⟩ (0 : Fin 2) * 1 ≤ (i 0).val ∧ (i 0).val < win1_5.index ⟨24, t24_lt⟩ (0 : Fin 2) * 1 + 1
    rw [e0]; omega
  | ⟨1, _⟩ =>
    show win1_5.index ⟨24, t24_lt⟩ (1 : Fin 2) * 128 ≤ (i 1).val
      ∧ (i 1).val < win1_5.index ⟨24, t24_lt⟩ (1 : Fin 2) * 128 + 128
    rw [e1]; omega

end Arrays

end Cert.KernelIdeal.KVal

end
-- ==== Proof.KRegion2.lean ====
/-
  The third launch: normalise a 2000-row tile by the column statistics and multiply each entry by its logistic.

  The body reads the tile and four one-row arrays (mean, variance, scale, shift), broadcasts each row down the tile,
  and stores z·σ(z) with z = (o − μ)·(var + ε)^(-1/2)·g + β. Written back tile by tile this is the same entrywise
  expression of the whole arrays.
-/
import proofs.«137879_j90031104459187_1_alg».proof.Proof.Gen.KernelIdeal.Frame
import proofs.«137879_j90031104459187_1_alg».proof.Proof.KForms
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (V : (c : Dev nD) → (b : Ref sig .tc) → Buf (Elt Ideal) ((c : Thread nD τ).loc b))

/-- One row broadcast down the tile reads, at row r and column q, the row's entry at q. -/
private theorem row_down (v : FVec Ideal S1x128 .f32) (r : Fin 2000) (q : Fin 128) :
    broadcastTo S2000x128 v broadcasts_S1x128_S2000x128 (ix2 r q) = v (ix2 (0 : Fin 1) q) :=
  broadcastTo_1b_ab_apply v broadcasts_S1x128_S2000x128 r q

private theorem logistic_at {s : Shape} (v : FVec Ideal s .f32) (i : s.Idx) : logistic v i = Ideal.logistic (v i) := rfl
private theorem rsqrt_at {s : Shape} (v : FVec Ideal s .f32) (i : s.Idx) : rsqrt v i = Ideal.rsqrt (v i) := rfl

/-- The body's arithmetic at one entry of the tile. -/
private theorem tile_entry (x0 : Vec Ideal S2000x128 .f32) (x1 x2 x3 x4 : Vec Ideal S1x128 .f32) (r : Fin 2000) (q : Fin 128) :
    k2_pay1 x0 x1 x2 x3 x4 (ix2 r q)
      = Gin.swish (Gin.bnz (x0 (ix2 r q)) (x1 (ix2 (0 : Fin 1) q)) (x2 (ix2 (0 : Fin 1) q)) (x3 (ix2 (0 : Fin 1) q)) (x4 (ix2 (0 : Fin 1) q))) := by
  unfold k2_pay1
  simp only [shapeCast_self]
  simp only [mulf_apply, addf_apply, subf_apply, logistic_at, rsqrt_at, row_down, broadcast_apply]
  rfl

private theorem zero_offsets : (![0, 0] : Fin 2 → Nat) = fun _ => 0 := funext fun a => by fin_cases a <;> rfl

/-- The block index maps over the 25 tiles: the two tiled windows sit at block (t, 0), the four one-row windows at block (0, 0). -/
private theorem block_index : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

/-- Row r of tile t is row 2000·t + r of the array. -/
private def tileRow (t : Fin cfg2.N) (r : Fin 2000) : Fin 50000 :=
  ⟨2000 * t.val + r.val, by
    have ht : t.val < grid2.N := t.isLt
    have hN : grid2.N = 25 := N_2
    have hr := r.isLt
    omega⟩

/-- Entry (r, q) of the output's tile t is entry (2000·t + r, q) of the output array. -/
private theorem out_tile_at (t : Fin cfg2.N) (r : Fin 2000) (q : Fin 128) :
    ((cfg2.win 5).blk t).view.emb (ix2 r q) = ix2 (tileRow t r) q := by
  obtain ⟨-, -, -, -, -, e0, e1⟩ := block_index t
  funext a; apply Fin.ext
  match a with
  | ⟨0, _⟩ => show win2_5.index t (0 : Fin 2) * 2000 + 1 * r.val = 2000 * t.val + r.val; rw [e0]; omega
  | ⟨1, _⟩ => show win2_5.index t (1 : Fin 2) * 128 + 1 * q.val = q.val; rw [e1]; omega

/-- The input tile t at (r, q) is the linear map's result at (2000·t + r, q). -/
private theorem in_tile_at (c : Dev nD) (t : Fin cfg2.N) (r : Fin 2000) (q : Fin 128) :
    (iblk2 V c 0 t : Vec Ideal S2000x128 .f32) (ix2 r q) = (V c main_v16_0 : Gin.Arr.A2 50000 128) (ix2 (tileRow t r) q) := by
  obtain ⟨⟨e0, e1⟩, -⟩ := block_index t
  show V c main_v16_0 (((cfg2.win 0).blk t).view.emb (ix2 r q)) = V c main_v16_0 (ix2 (tileRow t r) q)
  refine congrArg _ (funext fun a => Fin.ext ?_)
  match a with
  | ⟨0, _⟩ => show win2_0.index t (0 : Fin 2) * 2000 + 1 * r.val = 2000 * t.val + r.val; rw [e0]; omega
  | ⟨1, _⟩ => show win2_0.index t (1 : Fin 2) * 128 + 1 * q.val = q.val; rw [e1]; omega

/-- The one block of the mean row, at every tile, is the row itself. -/
private theorem row1_at (c : Dev nD) (t : Fin cfg2.N) (q : Fin 128) :
    (iblk2 V c 1 t : Vec Ideal S1x128 .f32) (ix2 (0 : Fin 1) q) = (V c main_v18 : Gin.Arr.A2 1 128) (ix2 (0 : Fin 1) q) := by
  obtain ⟨-, ⟨e0, e1⟩, -⟩ := block_index t
  show V c main_v18 (((cfg2.win 1).blk t).view.emb (ix2 (0 : Fin 1) q)) = V c main_v18 (ix2 (0 : Fin 1) q)
  refine congrArg _ (funext fun a => Fin.ext ?_)
  match a with
  | ⟨0, _⟩ => show win2_1.index t (0 : Fin 2) * 1 + 1 * 0 = 0; rw [e0]
  | ⟨1, _⟩ => show win2_1.index t (1 : Fin 2) * 128 + 1 * q.val = q.val; rw [e1]; omega

/-- The one block of the variance row, at every tile, is the row itself. -/
private theorem row2_at (c : Dev nD) (t : Fin cfg2.N) (q : Fin 128) :
    (iblk2 V c 2 t : Vec Ideal S1x128 .f32) (ix2 (0 : Fin 1) q) = (V c main_v22 : Gin.Arr.A2 1 128) (ix2 (0 : Fin 1) q) := by
  obtain ⟨-, -, ⟨e0, e1⟩, -⟩ := block_index t
  show V c main_v22 (((cfg2.win 2).blk t).view.emb (ix2 (0 : Fin 1) q)) = V c main_v22 (ix2 (0 : Fin 1) q)
  refine congrArg _ (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

/-- The one block of the scale row, at every tile, is the row itself. -/
private theorem row3_at (c : Dev nD) (t : Fin cfg2.N) (q : Fin 128) :
    (iblk2 V c 3 t : Vec Ideal S1x128 .f32) (ix2 (0 : Fin 1) q) = (V c main_v23 : Gin.Arr.A2 1 128) (ix2 (0 : Fin 1) q) := by
  obtain ⟨-, -, -, ⟨e0, e1⟩, -⟩ := block_index t
  show V c main_v23 (((cfg2.win 3).blk t).view.emb (ix2 (0 : Fin 1) q)) = V c main_v23 (ix2 (0 : Fin 1) q)
  refine congrArg _ (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega

/-- The one block of the shift row, at every tile, is the row itself. -/
private theorem row4_at (c : Dev nD) (t : Fin cfg2.N) (q : Fin 128) :
    (iblk2 V c 4 t : Vec Ideal S1x128 .f32) (ix2 (0 : Fin 1) q) = (V c main_v24 : Gin.Arr.A2 1 128) (ix2 (0 : Fin 1) q) := by
  obtain ⟨-, -, -, -, ⟨e0, e1⟩, -⟩ := block_index t
  show V c main_v24 (((cfg2.win 4).blk t).view.emb (ix2 (0 : Fin 1) q)) = V c main_v24 (ix2 (0 : Fin 1) q)
  refine congrArg _ (funext fun a => Fin.ext ?_)
  match a with
  | ⟨0, _⟩ => show win2_4.index t (0 : Fin 2) * 1 + 1 * 0 = 0; rw [e0]
  | ⟨1, _⟩ => show win2_4.index t (1 : Fin 2) * 128 + 1 * q.val = q.val; rw [e1]; omega

/-- What tile t writes back is tile t of the normalised, gated array. -/
private theorem tile_written (c : Dev nD) (t : Fin cfg2.N) :
    (dat2 (F := Ideal) V c).flushed 5 t
      = ((cfg2.win 5).blk t).view.read (Elt Ideal)
          (Gin.Arr.bnSwish (V c main_v16_0) (V c main_v18) (V c main_v22) (V c main_v23) (V c main_v24)) := by
  show (cfg2.win 5).cut (grid2.coords t) ((dat2 V c).after 5 t) = _
  rw [after2_5]
  unfold out2_5
  rw [View.canon_unit_zero zero_offsets]
  simp only [View.ld_unit_zero (S := S2000x128) zero_offsets, View.ld_unit_zero (S := S1x128) zero_offsets]
  funext y
  obtain ⟨r, q, rfl⟩ : ∃ (r : Fin 2000) (q : Fin 128), y = ix2 r q := ⟨y 0, y 1, eq_ix2 y⟩
  show k2_pay1 (iblk2 V c 0 t) (iblk2 V c 1 t) (iblk2 V c 2 t) (iblk2 V c 3 t) (iblk2 V c 4 t) (ix2 r q)
      = Gin.Arr.bnSwish (V c main_v16_0) (V c main_v18) (V c main_v22) (V c main_v23) (V c main_v24)
          (((cfg2.win 5).blk t).view.emb (ix2 r q))
  rw [out_tile_at]
  refine (tile_entry (iblk2 V c 0 t) (iblk2 V c 1 t) (iblk2 V c 2 t) (iblk2 V c 3 t) (iblk2 V c 4 t) r q).trans ?_
  rw [in_tile_at V c t r q, row1_at V c t q, row2_at V c t q, row3_at V c t q, row4_at V c t q]
  rfl

/-- An index of the output array lies in tile t's block iff each coordinate is in the block's range on its axis. -/
private theorem mem_tile (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v25).slice (win2_5.rect t)).set ↔ _
  rw [View.set_slice_whole, Rect.mem_set_unit]
  exact Iff.rfl

/-- Every row p of the output array lies in the tile p / 2000. -/
private theorem tiles_cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 25 := N_2
  let t : Fin cfg2.N := ⟨(i 0).val / 2000, by show (i 0).val / 2000 < grid2.N; omega⟩
  obtain ⟨-, -, -, -, -, e0, e1⟩ := block_index t
  refine ⟨t, flush2_5 t, ?_⟩
  rw [mem_tile]
  intro a
  match a with
  | ⟨0, _⟩ => show win2_5.index t (0 : Fin 2) * 2000 ≤ (i 0).val ∧ (i 0).val < win2_5.index t (0 : Fin 2) * 2000 + 2000; rw [e0]; show (i 0).val / 2000 * 2000 ≤ (i 0).val ∧ (i 0).val < (i 0).val / 2000 * 2000 + 2000; omega
  | ⟨1, _⟩ => show win2_5.index t (1 : Fin 2) * 128 ≤ (i 1).val ∧ (i 1).val < win2_5.index t (1 : Fin 2) * 128 + 128; rw [e1]; omega

/-- After the launch the output array is the normalised, gated array, entry by entry. -/
theorem region2 (c : Dev nD) :
    ((dat2 (F := Ideal) V c).arrAt 5 cfg2.N : Gin.Arr.A2 50000 128)
      = Gin.Arr.bnSwish (V c main_v16_0) (V c main_v18) (V c main_v22) (V c main_v23) (V c main_v24) :=
  (dat2 (F := Ideal) V c).arrAt_eq_of_cover 5
    (Gin.Arr.bnSwish (V c main_v16_0) (V c main_v18) (V c main_v22) (V c main_v23) (V c main_v24))
    (fun t _ => tile_written V c t) tiles_cover

end Cert.KernelIdeal.KVal

end
-- ==== Proof.KRegion3.lean ====
/-
  The second launch: the linear map of a 2000-row tile, and the running column sums of its result and of its squares.

  At grid point t the body multiplies rows 2000t … 2000t+1999 of the features by the weight matrix and adds the bias row;
  that tile of the result is written back at once. Two one-row accumulators are zeroed at the first point and at every
  point gain the tile's column sums, of the entries and of their squares; they are written back after the last point.
  So the three output arrays are: the linear map of the whole feature array; its column sums over all 50000 rows; and
  the column sums of its squares — the 25 partial sums of 2000 rows regrouped into one sum (addition of extended reals is
  commutative and associative, and 0 is neutral).
-/
import proofs.«137879_j90031104459187_1_alg».proof.Proof.Gen.KernelIdeal.Frame
import proofs.«137879_j90031104459187_1_alg».proof.Proof.KForms
import Idealize.ShloMosaic.Lib.Pipeline.Value
import Idealize.ShloMosaic.Lib.ValueLayout
import Idealize.ShloMosaic.PureOps.Ideal.Laws
import proofs.«137879_j90031104459187_1_alg».proof.Proof.LibPlainDot
import proofs.«137879_j90031104459187_1_alg».proof.Proof.LibColSum

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (V : (c : Dev nD) → (b : Ref sig .tc) → Buf (Elt Ideal) ((c : Thread nD τ).loc b))

/-! ## What each case of the body leaves in each output's buffer -/

section Pieces
variable {F : FTy → Type} [FloatOps F]

private theorem hz : (![0, 0] : Fin 2 → Nat) = fun _ => 0 := funext fun a => by fin_cases a <;> rfl

/-- At a later point the tile's buffer holds the linear map of the tile. -/
private theorem piece_B_3 (c : Dev nD) (i : grid3.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S2000x128 .f32) (x1 : Vec F S128x128 .f32) (x2 : Vec F S1x128 .f32) (xo4 xo5 : Vec F S1x128 .f32) :
    out3_B_3 c i a1 h1 a2 h2 a3 h3 a4 h4 a5 h5 a6 h6 hc x0 x1 x2 xo4 xo5 = k3_pay3 x0 x1 x2 := by
  unfold out3_B_3
  rw [View.read_writes_eq_canon _ _ _ (cover3_B_3 c i a1 h1 a2 h2 a3 h3 a4 h4 a5 h5 a6 h6 hc x0 x1 x2 xo4 xo5)]
  unfold kernelRun3_B
  dsimp only
  sl_unfold_words
  rw [View.canon_unit_zero hz]
  simp only [View.readAt_eq_ld, h1.read_unread, h2.read_unread, h3.read_unread, View.ld_unit_zero (S := S2000x128) hz,
    View.ld_unit_zero (S := S128x128) hz, View.ld_unit_zero (S := S1x128) hz]

/-- At a later point the first accumulator gains the tile's column sums. -/
private theorem piece_B_4 (c : Dev nD) (i : grid3.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S2000x128 .f32) (x1 : Vec F S128x128 .f32) (x2 : Vec F S1x128 .f32) (xo4 xo5 : Vec F S1x128 .f32) :
    out3_B_4 c i a1 h1 a2 h2 a3 h3 a4 h4 a5 h5 a6 h6 hc x0 x1 x2 xo4 xo5 = k3_pay4 x0 x1 x2 xo4 := by
  unfold out3_B_4
  rw [View.read_writes_eq_canon _ _ _ (cover3_B_4 c i a1 h1 a2 h2 a3 h3 a4 h4 a5 h5 a6 h6 hc x0 x1 x2 xo4 xo5)]
  unfold kernelRun3_B
  dsimp only
  sl_unfold_words
  rw [View.canon_unit_zero hz]
  simp only [View.readAt_eq_ld, h1.read_unread, h2.read_unread, h3.read_unread, h5.read_unread, h6.read_unread,
    View.ld_unit_zero (S := S2000x128) hz, View.ld_unit_zero (S := S128x128) hz, View.ld_unit_zero (S := S1x128) hz]

/-- At a later point the second accumulator gains the column sums of the tile's squares. -/
private theorem piece_B_5 (c : Dev nD) (i : grid3.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S2000x128 .f32) (x1 : Vec F S128x128 .f32) (x2 : Vec F S1x128 .f32) (xo4 xo5 : Vec F S1x128 .f32) :
    out3_B_5 c i a1 h1 a2 h2 a3 h3 a4 h4 a5 h5 a6 h6 hc x0 x1 x2 xo4 xo5 = k3_pay5 x0 x1 x2 xo5 := by
  unfold out3_B_5
  rw [View.read_writes_eq_canon _ _ _ (cover3_B_5 c i a1 h1 a2 h2 a3 h3 a4 h4 a5 h5 a6 h6 hc x0 x1 x2 xo4 xo5)]
  unfold kernelRun3_B
  dsimp only
  sl_unfold_words
  rw [View.canon_unit_zero hz]
  simp only [View.readAt_eq_ld, h1.read_unread, h2.read_unread, h3.read_unread, h5.read_unread, h6.read_unread,
    View.ld_unit_zero (S := S2000x128) hz, View.ld_unit_zero (S := S128x128) hz, View.ld_unit_zero (S := S1x128) hz]

/-- At the first point the tile's buffer holds the linear map of the tile. -/
private theorem piece_A_3 (c : Dev nD) (i : grid3.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond3_0 i) (x0 : Vec F S2000x128 .f32) (x1 : Vec F S128x128 .f32) (x2 : Vec F S1x128 .f32) :
    out3_A_3 c i a1 h1 a2 h2 a3 h3 a4 h4 a5 h5 a6 h6 hc x0 x1 x2 = k3_pay3 x0 x1 x2 := by
  unfold out3_A_3
  rw [View.read_writes_eq_canon _ _ _ (cover3_A_3 c i a1 h1 a2 h2 a3 h3 a4 h4 a5 h5 a6 h6 hc x0 x1 x2)]
  unfold kernelRun3_A
  dsimp only
  sl_unfold_words
  rw [View.canon_unit_zero hz]
  simp only [View.readAt_eq_ld, h1.read_unread, h2.read_unread, h3.read_unread, View.ld_unit_zero (S := S2000x128) hz,
    View.ld_unit_zero (S := S128x128) hz, View.ld_unit_zero (S := S1x128) hz]

/-- At the first point the first accumulator is zeroed and then gains the tile's column sums. -/
private theorem piece_A_4 (c : Dev nD) (i : grid3.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond3_0 i) (x0 : Vec F S2000x128 .f32) (x1 : Vec F S128x128 .f32) (x2 : Vec F S1x128 .f32) :
    out3_A_4 c i a1 h1 a2 h2 a3 h3 a4 h4 a5 h5 a6 h6 hc x0 x1 x2 = k3_pay4 x0 x1 x2 k3_pay1 := by
  unfold out3_A_4
  rw [View.read_writes_eq_canon _ _ _ (cover3_A_4 c i a1 h1 a2 h2 a3 h3 a4 h4 a5 h5 a6 h6 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S2000x128) hz,
    View.ld_unit_zero (S := S128x128) hz, View.ld_unit_zero (S := S1x128) hz]

/-- At the first point the second accumulator is zeroed and then gains the column sums of the tile's squares. -/
private theorem piece_A_5 (c : Dev nD) (i : grid3.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond3_0 i) (x0 : Vec F S2000x128 .f32) (x1 : Vec F S128x128 .f32) (x2 : Vec F S1x128 .f32) :
    out3_A_5 c i a1 h1 a2 h2 a3 h3 a4 h4 a5 h5 a6 h6 hc x0 x1 x2 = k3_pay5 x0 x1 x2 k3_pay2 := by
  unfold out3_A_5
  rw [View.read_writes_eq_canon _ _ _ (cover3_A_5 c i a1 h1 a2 h2 a3 h3 a4 h4 a5 h5 a6 h6 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S2000x128) hz,
    View.ld_unit_zero (S := S128x128) hz, View.ld_unit_zero (S := S1x128) hz]

end Pieces

/-! ## The body's arithmetic at an entry, over the extended reals -/

section Payloads

/-- The dimension numbers of the tile's product are those of a plain matrix product. -/
private theorem plain : PlainDot.IsPlain dot_S2000x128_S128x128_S2000x128_1_0_0_1_n_n := ⟨rfl, rfl, rfl, rfl, rfl, rfl⟩

/-- The tile's linear map at row r, column q: the row of the tile against the column of the weights, plus the bias. -/
private theorem pay3_apply (x : Vec Ideal S2000x128 .f32) (W : Vec Ideal S128x128 .f32) (b : Vec Ideal S1x128 .f32)
    (r : Fin 2000) (q : Fin 128) :
    (k3_pay3 x W b (ix2 r q) : EReal) = (∑ k : Fin 128, (x (ix2 r k) : EReal) * W (ix2 k q)) + b (ix2 0 q) := by
  unfold k3_pay3
  refine (addf_apply _ _ (ix2 r q)).trans ?_
  refine congrArg₂ (· + ·) ?_ ?_
  · refine (PlainDot.matmul_zero_apply plain none _ _ r q).trans ?_
    refine Finset.sum_congr rfl fun k _ => ?_
    rw [truncf_apply, truncf_apply, shapeCast_self]
  · refine (broadcastTo_1b_ab_apply _ _ r q).trans ?_
    rw [shapeCast_self]

/-- The first accumulator's update at column q: what it held plus the column sum of the tile's linear map. -/
private theorem pay4_apply (x : Vec Ideal S2000x128 .f32) (W : Vec Ideal S128x128 .f32) (b : Vec Ideal S1x128 .f32)
    (acc : Vec Ideal S1x128 .f32) (q : Fin 128) :
    (k3_pay4 x W b acc (ix2 0 q) : EReal) = acc (ix2 0 q) + ∑ r : Fin 2000, (k3_pay3 x W b (ix2 r q) : EReal) := by
  unfold k3_pay4
  refine (addf_apply _ _ (ix2 0 q)).trans ?_
  refine congrArg₂ (· + ·) ?_ ?_
  · rw [shapeCast_self]
  · refine (shapeCast_a_1a_apply _ _ 0 q).trans ?_
    exact ColSum.multiReduction_apply _ _ _ _ _ q

/-- The second accumulator's update at column q: what it held plus the column sum of the squares. -/
private theorem pay5_apply (x : Vec Ideal S2000x128 .f32) (W : Vec Ideal S128x128 .f32) (b : Vec Ideal S1x128 .f32)
    (acc : Vec Ideal S1x128 .f32) (q : Fin 128) :
    (k3_pay5 x W b acc (ix2 0 q) : EReal)
      = acc (ix2 0 q) + ∑ r : Fin 2000, (k3_pay3 x W b (ix2 r q) : EReal) * k3_pay3 x W b (ix2 r q) := by
  unfold k3_pay5
  refine (addf_apply _ _ (ix2 0 q)).trans ?_
  refine congrArg₂ (· + ·) ?_ ?_
  · rw [shapeCast_self]
  · refine (shapeCast_a_1a_apply _ _ 0 q).trans ?_
    exact ColSum.multiReduction_apply _ _ _ _ _ q

/-- The row the reset stores is zero at every column. -/
private theorem pay1_apply (j : S1x128.Idx) : ((k3_pay1 (F := Ideal)) j : EReal) = 0 := Ideal.ofBits_zero_f32
private theorem pay2_apply (j : S1x128.Idx) : ((k3_pay2 (F := Ideal)) j : EReal) = 0 := Ideal.ofBits_zero_f32

end Payloads

/-! ## The blocks the body reads -/

section Blocks

/-- The feature array, the weights and the bias row as the launch finds them. -/
private abbrev xarr (c : Dev nD) : Gin.Arr.A2 50000 128 := V c main_v25
private abbrev warr (c : Dev nD) : Gin.Arr.A2 128 128 := V c main_arg6
private abbrev barr (c : Dev nD) : Gin.Arr.A2 1 128 := V c main_v26

/-- The feature tile, the weights and the bias row as the body reads them at point t. -/
private abbrev xblk (c : Dev nD) (t : Fin cfg3.N) : Vec Ideal S2000x128 .f32 := iblk3 V c 0 t
private abbrev wblk (c : Dev nD) (t : Fin cfg3.N) : Vec Ideal S128x128 .f32 := iblk3 V c 1 t
private abbrev bblk (c : Dev nD) (t : Fin cfg3.N) : Vec Ideal S1x128 .f32 := iblk3 V c 2 t

/-- Where each window's block sits at point t: the features' and the result's tile is tile t; every other block is
    the one block of its array. -/
private theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Row r of the feature tile at point t is row 2000 t + r of the feature array. -/
private theorem xblk_apply (c : Dev nD) (t : Fin cfg3.N) (r : Fin 2000) (k : Fin 128) (hr : 2000 * t.val + r.val < 50000) :
    (xblk V c t (ix2 r k) : EReal) = xarr V c (ix2 ⟨2000 * t.val + r.val, hr⟩ k) := by
  show V c main_v25 (((cfg3.win 0).blk t).view.emb (ix2 r k)) = V c main_v25 _
  refine congrArg (V c main_v25) ?_
  obtain ⟨e0, e1, -⟩ := idx_facts t
  funext a; apply Fin.ext
  match a with
  | ⟨0, _⟩ => show win3_0.index t (0 : Fin 2) * 2000 + 1 * r.val = 2000 * t.val + r.val; rw [e0]; omega
  | ⟨1, _⟩ => show win3_0.index t (1 : Fin 2) * 128 + 1 * k.val = k.val; rw [e1]; omega

/-- The weights' block is the whole weight matrix. -/
private theorem wblk_eq (c : Dev nD) (t : Fin cfg3.N) : wblk V c t = warr V c := by
  funext y
  show V c main_arg6 (((cfg3.win 1).blk t).view.emb y) = V c main_arg6 y
  refine congrArg (V c main_arg6) ?_
  obtain ⟨-, -, e0, e1, -⟩ := idx_facts t
  funext a; apply Fin.ext
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

/-- The bias' block is the whole bias row. -/
private theorem bblk_eq (c : Dev nD) (t : Fin cfg3.N) : bblk V c t = barr V c := by
  funext y
  show V c main_v26 (((cfg3.win 2).blk t).view.emb y) = V c main_v26 y
  refine congrArg (V c main_v26) ?_
  obtain ⟨-, -, -, -, e0, e1, -⟩ := idx_facts t
  funext a; apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

end Blocks

/-! ## The outputs point by point -/

section Accumulate

/-- The linear map of the whole feature array. -/
private abbrev linArr (c : Dev nD) : Gin.Arr.A2 50000 128 := Gin.Arr.lin (xarr V c) (warr V c) (barr V c)

/-- The body's linear map of tile t, at row r, is the whole array's linear map at row 2000 t + r. -/
private theorem tile_apply (c : Dev nD) (t : Fin cfg3.N) (r : Fin 2000) (q : Fin 128) (hr : 2000 * t.val + r.val < 50000) :
    (k3_pay3 (xblk V c t) (wblk V c t) (bblk V c t) (ix2 r q) : EReal)
      = linArr V c (ix2 ⟨2000 * t.val + r.val, hr⟩ q) := by
  refine (pay3_apply (xblk V c t) (wblk V c t) (bblk V c t) r q).trans ?_
  rw [wblk_eq, bblk_eq]
  show _ = (∑ k : Fin 128, xarr V c (ix2 ⟨2000 * t.val + r.val, hr⟩ k) * warr V c (ix2 k q)) + barr V c (ix2 0 q)
  refine congrArg₂ (· + ·) (Finset.sum_congr rfl fun k _ => ?_) rfl
  rw [xblk_apply V c t r k hr]

/-- Every point leaves the linear map of its tile in the tile's buffer. -/
private theorem out3_eq (c : Dev nD) (t : Fin cfg3.N) :
    (outsAt3 V c t.val t.isLt).1 = k3_pay3 (xblk V c t) (wblk V c t) (bblk V c t) := by
  by_cases h0 : t.val % 25 = 0
  · rw [outsAt3_A V c t h0]; dsimp only
    exact piece_A_3 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (xblk V c t) (wblk V c t) (bblk V c t)
  · rw [outsAt3_B V c t h0]; dsimp only
    exact piece_B_3 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (xblk V c t) (wblk V c t) (bblk V c t)
      (outsAt3 V c (t.val - 1) (Nat.lt_of_le_of_lt (Nat.sub_le _ _) t.isLt)).2.1 (outsAt3 V c (t.val - 1) (Nat.lt_of_le_of_lt (Nat.sub_le _ _) t.isLt)).2.2

/-- The first point zeroes the first accumulator and adds its tile's column sums. -/
private theorem acc4_first (c : Dev nD) (t : Fin cfg3.N) (h0 : t.val % 25 = 0) :
    (outsAt3 V c t.val t.isLt).2.1 = k3_pay4 (xblk V c t) (wblk V c t) (bblk V c t) (k3_pay1 (F := Ideal)) := by
  rw [outsAt3_A V c t h0]; dsimp only
  exact piece_A_4 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (xblk V c t) (wblk V c t) (bblk V c t)

/-- A later point adds its tile's column sums to what the point before left. -/
private theorem acc4_step (c : Dev nD) (t : Fin cfg3.N) (h0 : ¬t.val % 25 = 0) :
    (outsAt3 V c t.val t.isLt).2.1
      = k3_pay4 (xblk V c t) (wblk V c t) (bblk V c t) (outsAt3 V c (t.val - 1) (Nat.lt_of_le_of_lt (Nat.sub_le _ _) t.isLt)).2.1 := by
  rw [outsAt3_B V c t h0]; dsimp only
  exact piece_B_4 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (xblk V c t) (wblk V c t) (bblk V c t)
    (outsAt3 V c (t.val - 1) (Nat.lt_of_le_of_lt (Nat.sub_le _ _) t.isLt)).2.1 (outsAt3 V c (t.val - 1) (Nat.lt_of_le_of_lt (Nat.sub_le _ _) t.isLt)).2.2

/-- The first point zeroes the second accumulator and adds the column sums of its tile's squares. -/
private theorem acc5_first (c : Dev nD) (t : Fin cfg3.N) (h0 : t.val % 25 = 0) :
    (outsAt3 V c t.val t.isLt).2.2 = k3_pay5 (xblk V c t) (wblk V c t) (bblk V c t) (k3_pay2 (F := Ideal)) := by
  rw [outsAt3_A V c t h0]; dsimp only
  exact piece_A_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (xblk V c t) (wblk V c t) (bblk V c t)

/-- A later point adds the column sums of its tile's squares to what the point before left. -/
private theorem acc5_step (c : Dev nD) (t : Fin cfg3.N) (h0 : ¬t.val % 25 = 0) :
    (outsAt3 V c t.val t.isLt).2.2
      = k3_pay5 (xblk V c t) (wblk V c t) (bblk V c t) (outsAt3 V c (t.val - 1) (Nat.lt_of_le_of_lt (Nat.sub_le _ _) t.isLt)).2.2 := by
  rw [outsAt3_B V c t h0]; dsimp only
  exact piece_B_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (xblk V c t) (wblk V c t) (bblk V c t)
    (outsAt3 V c (t.val - 1) (Nat.lt_of_le_of_lt (Nat.sub_le _ _) t.isLt)).2.1 (outsAt3 V c (t.val - 1) (Nat.lt_of_le_of_lt (Nat.sub_le _ _) t.isLt)).2.2

end Accumulate

/-! ## The accumulators after point n: the column sums over the tiles so far -/

section Sums

/-- The column sum of the linear map over the 2000 rows of tile t (zero past the last tile). -/
private def tileSum (c : Dev nD) (q : Fin 128) (t : ℕ) : EReal :=
  if h : t < 25 then
    ∑ r : Fin 2000, linArr V c (ix2 (ColSum.tilePos (T := 25) (R := 2000) (N := 50000) rfl ⟨t, h⟩ r) q)
  else 0

/-- The column sum of the squares over the rows of tile t (zero past the last tile). -/
private def tileSumSq (c : Dev nD) (q : Fin 128) (t : ℕ) : EReal :=
  if h : t < 25 then
    ∑ r : Fin 2000, linArr V c (ix2 (ColSum.tilePos (T := 25) (R := 2000) (N := 50000) rfl ⟨t, h⟩ r) q)
      * linArr V c (ix2 (ColSum.tilePos (T := 25) (R := 2000) (N := 50000) rfl ⟨t, h⟩ r) q)
  else 0

/-- The body's column sum over its tile is the array's column sum over tile t. -/
private theorem tileSum_eq (c : Dev nD) (t : Fin cfg3.N) (q : Fin 128) :
    ∑ r : Fin 2000, (k3_pay3 (xblk V c t) (wblk V c t) (bblk V c t) (ix2 r q) : EReal) = tileSum V c q t.val := by
  have hN : t.val < 25 := lt_of_lt_of_eq t.isLt (show cfg3.N = 25 from N_3)
  unfold tileSum
  rw [dif_pos hN]
  exact Finset.sum_congr rfl fun r _ => tile_apply V c t r q (by have := r.isLt; omega)

private theorem tileSumSq_eq (c : Dev nD) (t : Fin cfg3.N) (q : Fin 128) :
    ∑ r : Fin 2000, (k3_pay3 (xblk V c t) (wblk V c t) (bblk V c t) (ix2 r q) : EReal)
        * k3_pay3 (xblk V c t) (wblk V c t) (bblk V c t) (ix2 r q) = tileSumSq V c q t.val := by
  have hN : t.val < 25 := lt_of_lt_of_eq t.isLt (show cfg3.N = 25 from N_3)
  unfold tileSumSq
  rw [dif_pos hN]
  refine Finset.sum_congr rfl fun r _ => ?_
  rw [tile_apply V c t r q (by have := r.isLt; omega)]
  rfl

/-- After point n the first accumulator holds, at column q, the column sums of tiles 0 … n. -/
private theorem acc4_eq (c : Dev nD) : ∀ (n : ℕ) (h : n < cfg3.N) (q : Fin 128),
    ((outsAt3 V c n h).2.1 (ix2 0 q) : EReal) = ∑ t ∈ Finset.range (n + 1), tileSum V c q t
  | 0, h, q => by
    refine (congrFun (acc4_first V c ⟨0, h⟩ rfl) (ix2 0 q)).trans ?_
    refine (pay4_apply _ _ _ _ q).trans ?_
    rw [pay1_apply, zero_add, Finset.sum_range_one]
    exact tileSum_eq V c ⟨0, h⟩ q
  | n + 1, h, q => by
    have hN : cfg3.N = 25 := N_3
    have hB : ¬(⟨n + 1, h⟩ : Fin cfg3.N).val % 25 = 0 := by dsimp only; omega
    refine (congrFun (acc4_step V c ⟨n + 1, h⟩ hB) (ix2 0 q)).trans ?_
    refine (pay4_apply _ _ _ _ q).trans ?_
    rw [Finset.sum_range_succ _ (n + 1)]
    exact congrArg₂ (· + ·) (acc4_eq c n (Nat.lt_of_succ_lt h) q) (tileSum_eq V c ⟨n + 1, h⟩ q)

/-- After point n the second accumulator holds, at column q, the column sums of the squares over tiles 0 … n. -/
private theorem acc5_eq (c : Dev nD) : ∀ (n : ℕ) (h : n < cfg3.N) (q : Fin 128),
    ((outsAt3 V c n h).2.2 (ix2 0 q) : EReal) = ∑ t ∈ Finset.range (n + 1), tileSumSq V c q t
  | 0, h, q => by
    refine (congrFun (acc5_first V c ⟨0, h⟩ rfl) (ix2 0 q)).trans ?_
    refine (pay5_apply _ _ _ _ q).trans ?_
    rw [pay2_apply, zero_add, Finset.sum_range_one]
    exact tileSumSq_eq V c ⟨0, h⟩ q
  | n + 1, h, q => by
    have hN : cfg3.N = 25 := N_3
    have hB : ¬(⟨n + 1, h⟩ : Fin cfg3.N).val % 25 = 0 := by dsimp only; omega
    refine (congrFun (acc5_step V c ⟨n + 1, h⟩ hB) (ix2 0 q)).trans ?_
    refine (pay5_apply _ _ _ _ q).trans ?_
    rw [Finset.sum_range_succ _ (n + 1)]
    exact congrArg₂ (· + ·) (acc5_eq c n (Nat.lt_of_succ_lt h) q) (tileSumSq_eq V c ⟨n + 1, h⟩ q)

/-- The 25 tile sums are the sum over all 50000 rows. -/
private theorem tiles_total (c : Dev nD) (q : Fin 128) :
    ∑ t ∈ Finset.range 25, tileSum V c q t = ∑ p : Fin 50000, linArr V c (ix2 p q) := by
  rw [ColSum.sum_tiles (T := 25) (R := 2000) (N := 50000) rfl (fun p => linArr V c (ix2 p q)), Finset.sum_range]
  refine Finset.sum_congr rfl fun t _ => ?_
  unfold tileSum
  rw [dif_pos t.isLt]

private theorem tilesSq_total (c : Dev nD) (q : Fin 128) :
    ∑ t ∈ Finset.range 25, tileSumSq V c q t = ∑ p : Fin 50000, linArr V c (ix2 p q) * linArr V c (ix2 p q) := by
  rw [ColSum.sum_tiles (T := 25) (R := 2000) (N := 50000) rfl (fun p => linArr V c (ix2 p q) * linArr V c (ix2 p q)),
    Finset.sum_range]
  refine Finset.sum_congr rfl fun t _ => ?_
  unfold tileSumSq
  rw [dif_pos t.isLt]

end Sums

/-! ## From the points' write-backs to the three arrays -/

section Arrays

/-- What point t writes back to the result array is tile t of the linear map of the whole feature array. -/
private theorem flushed3_eq (c : Dev nD) (t : Fin cfg3.N) :
    (dat3 (F := Ideal) V c).flushed 3 t = ((cfg3.win 3).blk t).view.read (Elt Ideal) (linArr V c) := by
  show (cfg3.win 3).cut (grid3.coords t) ((dat3 V c).after 3 t) = _
  rw [after3_3, out3_eq]
  funext y
  have hN : t.val < 25 := lt_of_lt_of_eq t.isLt (show cfg3.N = 25 from N_3)
  have h0 : (y 0).val < 2000 := (y 0).isLt
  have h1 : (y 1).val < 128 := (y 1).isLt
  have ey : (cfg3.win 3).xinj (grid3.coords t) y = ix2 (⟨(y 0).val, h0⟩ : Fin 2000) (⟨(y 1).val, h1⟩ : Fin 128) := by
    funext a
    match a with
    | ⟨0, _⟩ => rfl
    | ⟨1, _⟩ => rfl
  show k3_pay3 (xblk V c t) (wblk V c t) (bblk V c t) ((cfg3.win 3).xinj (grid3.coords t) y)
    = linArr V c (((cfg3.win 3).blk t).view.emb y)
  rw [ey]
  refine (tile_apply V c t ⟨(y 0).val, h0⟩ ⟨(y 1).val, h1⟩ (by dsimp only; omega)).trans ?_
  refine congrArg (linArr V c) ?_
  obtain ⟨-, -, -, -, -, -, e0, e1, -⟩ := idx_facts t
  funext a; apply Fin.ext
  match a with
  | ⟨0, _⟩ => show 2000 * t.val + (y 0).val = win3_3.index t (0 : Fin 2) * 2000 + 1 * (y 0).val; rw [e0]; omega
  | ⟨1, _⟩ => show (y 1).val = win3_3.index t (1 : Fin 2) * 128 + 1 * (y 1).val; rw [e1]; omega

/-- An index of the result array is in tile t iff its row is one of the tile's 2000 rows. -/
private theorem mem_blk3 (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v27_0).slice (win3_3.rect t)).set ↔ _
  rw [View.set_slice_whole, Rect.mem_set_unit]
  exact Iff.rfl

/-- The linear map's result array. -/
theorem region3_out (c : Dev nD) :
    ((dat3 (F := Ideal) V c).arrAt 3 cfg3.N : Gin.Arr.A2 50000 128)
      = Gin.Arr.lin (V c main_v25) (V c main_arg6) (V c main_v26) := by
  refine (dat3 (F := Ideal) V c).arrAt_eq_of_cover 3 (linArr V c) (fun t _ => flushed3_eq V c t) fun i => ?_
  have hi0 : (i 0).val < 50000 := (i 0).isLt
  have hi1 : (i 1).val < 128 := (i 1).isLt
  have ht : (i 0).val / 2000 < cfg3.N := by rw [show cfg3.N = 25 from N_3]; omega
  refine ⟨⟨(i 0).val / 2000, ht⟩, flush3_3 _, ?_⟩
  rw [mem_blk3]
  obtain ⟨-, -, -, -, -, -, e0, e1, -⟩ := idx_facts ⟨(i 0).val / 2000, ht⟩
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e0]; dsimp only; omega
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    rw [e1]; omega

/-- The column sums read at a column. -/
private theorem colSum_apply (o : Gin.Arr.A2 50000 128) (q : Fin 128) :
    Gin.Arr.colSum o (ix2 0 q) = ∑ p : Fin 50000, o (ix2 p q) := rfl
private theorem colSumSq_apply (o : Gin.Arr.A2 50000 128) (q : Fin 128) :
    Gin.Arr.colSumSq o (ix2 0 q) = ∑ p : Fin 50000, o (ix2 p q) * o (ix2 p q) := rfl

/-- The last point. -/
private theorem t24_lt : 24 < cfg3.N := by rw [show cfg3.N = 25 from N_3]; omega

/-- The one write-back of the first accumulator, after the last point, writes the column sums over all rows. -/
private theorem flushed4_eq (c : Dev nD) (t : Fin cfg3.N) (hf : (cfg3.win 4).flush t = true) :
    (dat3 (F := Ideal) V c).flushed 4 t
      = ((cfg3.win 4).blk t).view.read (Elt Ideal) (Gin.Arr.colSum (linArr V c)) := by
  have hN : cfg3.N = 25 := N_3
  have h24 : t.val = 24 := by have := (flush3_4 t).mp hf; have := t.isLt; omega
  have e24 : Finset.range (t.val + 1) = Finset.range 25 := by rw [h24]
  show (cfg3.win 4).cut (grid3.coords t) ((dat3 V c).after 4 t) = _
  rw [after3_4]
  generalize hG : Gin.Arr.colSum (linArr V c) = G
  funext y
  have h0 : (y 0).val < 1 := (y 0).isLt
  have h1 : (y 1).val < 128 := (y 1).isLt
  have ey : (cfg3.win 4).xinj (grid3.coords t) y = ix2 (0 : Fin 1) (⟨(y 1).val, h1⟩ : Fin 128) := by
    funext a
    match a with
    | ⟨0, _⟩ => exact Fin.ext (show (y 0).val = 0 by omega)
    | ⟨1, _⟩ => rfl
  have ee : ((cfg3.win 4).blk t).view.emb y = ix2 (0 : Fin 1) (⟨(y 1).val, h1⟩ : Fin 128) := by
    obtain ⟨-, -, -, -, -, -, -, -, e0, e1, -⟩ := idx_facts t
    funext a; apply Fin.ext
    match a with
    | ⟨0, _⟩ => show win3_4.index t (0 : Fin 2) * 1 + 1 * (y 0).val = 0; rw [e0]; omega
    | ⟨1, _⟩ => show win3_4.index t (1 : Fin 2) * 128 + 1 * (y 1).val = (y 1).val; rw [e1]; omega
  show (outsAt3 V c t.val t.isLt).2.1 ((cfg3.win 4).xinj (grid3.coords t) y)
    = G (((cfg3.win 4).blk t).view.emb y)
  rw [ey, ee, ← hG, colSum_apply]
  refine (acc4_eq V c t.val t.isLt ⟨(y 1).val, h1⟩).trans ?_
  rw [e24]
  exact tiles_total V c ⟨(y 1).val, h1⟩

/-- The one write-back of the second accumulator writes the column sums of the squares over all rows. -/
private theorem flushed5_eq (c : Dev nD) (t : Fin cfg3.N) (hf : (cfg3.win 5).flush t = true) :
    (dat3 (F := Ideal) V c).flushed 5 t
      = ((cfg3.win 5).blk t).view.read (Elt Ideal) (Gin.Arr.colSumSq (linArr V c)) := by
  have hN : cfg3.N = 25 := N_3
  have h24 : t.val = 24 := by have := (flush3_5 t).mp hf; have := t.isLt; omega
  have e24 : Finset.range (t.val + 1) = Finset.range 25 := by rw [h24]
  show (cfg3.win 5).cut (grid3.coords t) ((dat3 V c).after 5 t) = _
  rw [after3_5]
  generalize hG : Gin.Arr.colSumSq (linArr V c) = G
  funext y
  have h0 : (y 0).val < 1 := (y 0).isLt
  have h1 : (y 1).val < 128 := (y 1).isLt
  have ey : (cfg3.win 5).xinj (grid3.coords t) y = ix2 (0 : Fin 1) (⟨(y 1).val, h1⟩ : Fin 128) := by
    funext a
    match a with
    | ⟨0, _⟩ => exact Fin.ext (show (y 0).val = 0 by omega)
    | ⟨1, _⟩ => rfl
  have ee : ((cfg3.win 5).blk t).view.emb y = ix2 (0 : Fin 1) (⟨(y 1).val, h1⟩ : Fin 128) := by
    obtain ⟨-, -, -, -, -, -, -, -, -, -, e0, e1⟩ := idx_facts t
    funext a; apply Fin.ext
    match a with
    | ⟨0, _⟩ => show win3_5.index t (0 : Fin 2) * 1 + 1 * (y 0).val = 0; rw [e0]; omega
    | ⟨1, _⟩ => show win3_5.index t (1 : Fin 2) * 128 + 1 * (y 1).val = (y 1).val; rw [e1]; omega
  show (outsAt3 V c t.val t.isLt).2.2 ((cfg3.win 5).xinj (grid3.coords t) y)
    = G (((cfg3.win 5).blk t).view.emb y)
  rw [ey, ee, ← hG, colSumSq_apply]
  refine (acc5_eq V c t.val t.isLt ⟨(y 1).val, h1⟩).trans ?_
  rw [e24]
  exact tilesSq_total V c ⟨(y 1).val, h1⟩

/-- Every index of a one-row array is in the one block, whatever the point. -/
private theorem mem_blk4 (t : Fin cfg3.N) (i : S1x128.Idx) :
    i ∈ ((cfg3.win 4).blk t).view.set ↔ ∀ a : Fin 2, win3_4.index t a * S1x128.size a ≤ (i a).val
      ∧ (i a).val < win3_4.index t a * S1x128.size a + S1x128.size a := by
  show i ∈ ((View.whole main_v27_1).slice (win3_4.rect t)).set ↔ _
  rw [View.set_slice_whole, Rect.mem_set_unit]
  exact Iff.rfl

private theorem mem_blk5 (t : Fin cfg3.N) (i : S1x128.Idx) :
    i ∈ ((cfg3.win 5).blk t).view.set ↔ ∀ a : Fin 2, win3_5.index t a * S1x128.size a ≤ (i a).val
      ∧ (i a).val < win3_5.index t a * S1x128.size a + S1x128.size a := by
  show i ∈ ((View.whole main_v27_2).slice (win3_5.rect t)).set ↔ _
  rw [View.set_slice_whole, Rect.mem_set_unit]
  exact Iff.rfl

/-- The column sums of the linear map's result. -/
theorem region3_sum (c : Dev nD) :
    ((dat3 (F := Ideal) V c).arrAt 4 cfg3.N : Gin.Arr.A2 1 128)
      = Gin.Arr.colSum (Gin.Arr.lin (V c main_v25) (V c main_arg6) (V c main_v26)) := by
  refine (dat3 (F := Ideal) V c).arrAt_eq_of_cover 4 (Gin.Arr.colSum (linArr V c)) (flushed4_eq V c) fun i => ?_
  have hi0 : (i 0).val < 1 := (i 0).isLt
  have hi1 : (i 1).val < 128 := (i 1).isLt
  refine ⟨⟨24, t24_lt⟩, (flush3_4 _).mpr rfl, ?_⟩
  rw [mem_blk4]
  obtain ⟨-, -, -, -, -, -, -, -, e0, e1, -⟩ := idx_facts ⟨24, t24_lt⟩
  intro a
  match a with
  | ⟨0, _⟩ =>
    show win3_4.index ⟨24, t24_lt⟩ (0 : Fin 2) * 1 ≤ (i 0).val ∧ (i 0).val < win3_4.index ⟨24, t24_lt⟩ (0 : Fin 2) * 1 + 1
    rw [e0]; omega
  | ⟨1, _⟩ =>
    show win3_4.index ⟨24, t24_lt⟩ (1 : Fin 2) * 128 ≤ (i 1).val
      ∧ (i 1).val < win3_4.index ⟨24, t24_lt⟩ (1 : Fin 2) * 128 + 128
    rw [e1]; omega

/-- The column sums of its squares. -/
theorem region3_sq (c : Dev nD) :
    ((dat3 (F := Ideal) V c).arrAt 5 cfg3.N : Gin.Arr.A2 1 128)
      = Gin.Arr.colSumSq (Gin.Arr.lin (V c main_v25) (V c main_arg6) (V c main_v26)) := by
  refine (dat3 (F := Ideal) V c).arrAt_eq_of_cover 5 (Gin.Arr.colSumSq (linArr V c)) (flushed5_eq V c) fun i => ?_
  have hi0 : (i 0).val < 1 := (i 0).isLt
  have hi1 : (i 1).val < 128 := (i 1).isLt
  refine ⟨⟨24, t24_lt⟩, (flush3_5 _).mpr rfl, ?_⟩
  rw [mem_blk5]
  obtain ⟨-, -, -, -, -, -, -, -, -, -, e0, e1⟩ := idx_facts ⟨24, t24_lt⟩
  intro a
  match a with
  | ⟨0, _⟩ =>
    show win3_5.index ⟨24, t24_lt⟩ (0 : Fin 2) * 1 ≤ (i 0).val ∧ (i 0).val < win3_5.index ⟨24, t24_lt⟩ (0 : Fin 2) * 1 + 1
    rw [e0]; omega
  | ⟨1, _⟩ =>
    show win3_5.index ⟨24, t24_lt⟩ (1 : Fin 2) * 128 ≤ (i 1).val
      ∧ (i 1).val < win3_5.index ⟨24, t24_lt⟩ (1 : Fin 2) * 128 + 128
    rw [e1]; omega

end Arrays

end Cert.KernelIdeal.KVal

end
-- ==== Proof.KRegion4.lean ====
/-
  The third launch: normalise a 2000-row tile by the column statistics and multiply each entry by its logistic.

  The body reads the tile and four one-row arrays (mean, variance, scale, shift), broadcasts each row down the tile,
  and stores z·σ(z) with z = (o − μ)·(var + ε)^(-1/2)·g + β. Written back tile by tile this is the same entrywise
  expression of the whole arrays.
-/
import proofs.«137879_j90031104459187_1_alg».proof.Proof.Gen.KernelIdeal.Frame
import proofs.«137879_j90031104459187_1_alg».proof.Proof.KForms
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (V : (c : Dev nD) → (b : Ref sig .tc) → Buf (Elt Ideal) ((c : Thread nD τ).loc b))

/-- One row broadcast down the tile reads, at row r and column q, the row's entry at q. -/
private theorem row_down (v : FVec Ideal S1x128 .f32) (r : Fin 2000) (q : Fin 128) :
    broadcastTo S2000x128 v broadcasts_S1x128_S2000x128 (ix2 r q) = v (ix2 (0 : Fin 1) q) :=
  broadcastTo_1b_ab_apply v broadcasts_S1x128_S2000x128 r q

private theorem logistic_at {s : Shape} (v : FVec Ideal s .f32) (i : s.Idx) : logistic v i = Ideal.logistic (v i) := rfl
private theorem rsqrt_at {s : Shape} (v : FVec Ideal s .f32) (i : s.Idx) : rsqrt v i = Ideal.rsqrt (v i) := rfl

/-- The body's arithmetic at one entry of the tile. -/
private theorem tile_entry (x0 : Vec Ideal S2000x128 .f32) (x1 x2 x3 x4 : Vec Ideal S1x128 .f32) (r : Fin 2000) (q : Fin 128) :
    k4_pay1 x0 x1 x2 x3 x4 (ix2 r q)
      = Gin.swish (Gin.bnz (x0 (ix2 r q)) (x1 (ix2 (0 : Fin 1) q)) (x2 (ix2 (0 : Fin 1) q)) (x3 (ix2 (0 : Fin 1) q)) (x4 (ix2 (0 : Fin 1) q))) := by
  unfold k4_pay1
  simp only [shapeCast_self]
  simp only [mulf_apply, addf_apply, subf_apply, logistic_at, rsqrt_at, row_down, broadcast_apply]
  rfl

private theorem zero_offsets : (![0, 0] : Fin 2 → Nat) = fun _ => 0 := funext fun a => by fin_cases a <;> rfl

/-- The block index maps over the 25 tiles: the two tiled windows sit at block (t, 0), the four one-row windows at block (0, 0). -/
private theorem block_index : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = t.val ∧ win4_5.index t (1 : Fin 2) = 0) :=
  (by decide +kernel : ∀ t : Fin grid4.N, _)

/-- Row r of tile t is row 2000·t + r of the array. -/
private def tileRow (t : Fin cfg4.N) (r : Fin 2000) : Fin 50000 :=
  ⟨2000 * t.val + r.val, by
    have ht : t.val < grid4.N := t.isLt
    have hN : grid4.N = 25 := N_4
    have hr := r.isLt
    omega⟩

/-- Entry (r, q) of the output's tile t is entry (2000·t + r, q) of the output array. -/
private theorem out_tile_at (t : Fin cfg4.N) (r : Fin 2000) (q : Fin 128) :
    ((cfg4.win 5).blk t).view.emb (ix2 r q) = ix2 (tileRow t r) q := by
  obtain ⟨-, -, -, -, -, e0, e1⟩ := block_index t
  funext a; apply Fin.ext
  match a with
  | ⟨0, _⟩ => show win4_5.index t (0 : Fin 2) * 2000 + 1 * r.val = 2000 * t.val + r.val; rw [e0]; omega
  | ⟨1, _⟩ => show win4_5.index t (1 : Fin 2) * 128 + 1 * q.val = q.val; rw [e1]; omega

/-- The input tile t at (r, q) is the linear map's result at (2000·t + r, q). -/
private theorem in_tile_at (c : Dev nD) (t : Fin cfg4.N) (r : Fin 2000) (q : Fin 128) :
    (iblk4 V c 0 t : Vec Ideal S2000x128 .f32) (ix2 r q) = (V c main_v27_0 : Gin.Arr.A2 50000 128) (ix2 (tileRow t r) q) := by
  obtain ⟨⟨e0, e1⟩, -⟩ := block_index t
  show V c main_v27_0 (((cfg4.win 0).blk t).view.emb (ix2 r q)) = V c main_v27_0 (ix2 (tileRow t r) q)
  refine congrArg _ (funext fun a => Fin.ext ?_)
  match a with
  | ⟨0, _⟩ => show win4_0.index t (0 : Fin 2) * 2000 + 1 * r.val = 2000 * t.val + r.val; rw [e0]; omega
  | ⟨1, _⟩ => show win4_0.index t (1 : Fin 2) * 128 + 1 * q.val = q.val; rw [e1]; omega

/-- The one block of the mean row, at every tile, is the row itself. -/
private theorem row1_at (c : Dev nD) (t : Fin cfg4.N) (q : Fin 128) :
    (iblk4 V c 1 t : Vec Ideal S1x128 .f32) (ix2 (0 : Fin 1) q) = (V c main_v29 : Gin.Arr.A2 1 128) (ix2 (0 : Fin 1) q) := by
  obtain ⟨-, ⟨e0, e1⟩, -⟩ := block_index t
  show V c main_v29 (((cfg4.win 1).blk t).view.emb (ix2 (0 : Fin 1) q)) = V c main_v29 (ix2 (0 : Fin 1) q)
  refine congrArg _ (funext fun a => Fin.ext ?_)
  match a with
  | ⟨0, _⟩ => show win4_1.index t (0 : Fin 2) * 1 + 1 * 0 = 0; rw [e0]
  | ⟨1, _⟩ => show win4_1.index t (1 : Fin 2) * 128 + 1 * q.val = q.val; rw [e1]; omega

/-- The one block of the variance row, at every tile, is the row itself. -/
private theorem row2_at (c : Dev nD) (t : Fin cfg4.N) (q : Fin 128) :
    (iblk4 V c 2 t : Vec Ideal S1x128 .f32) (ix2 (0 : Fin 1) q) = (V c main_v33 : Gin.Arr.A2 1 128) (ix2 (0 : Fin 1) q) := by
  obtain ⟨-, -, ⟨e0, e1⟩, -⟩ := block_index t
  show V c main_v33 (((cfg4.win 2).blk t).view.emb (ix2 (0 : Fin 1) q)) = V c main_v33 (ix2 (0 : Fin 1) q)
  refine congrArg _ (funext fun a => Fin.ext ?_)
  match a with
  | ⟨0, _⟩ => show win4_2.index t (0 : Fin 2) * 1 + 1 * 0 = 0; rw [e0]
  | ⟨1, _⟩ => show win4_2.index t (1 : Fin 2) * 128 + 1 * q.val = q.val; rw [e1]; omega

/-- The one block of the scale row, at every tile, is the row itself. -/
private theorem row3_at (c : Dev nD) (t : Fin cfg4.N) (q : Fin 128) :
    (iblk4 V c 3 t : Vec Ideal S1x128 .f32) (ix2 (0 : Fin 1) q) = (V c main_v34 : Gin.Arr.A2 1 128) (ix2 (0 : Fin 1) q) := by
  obtain ⟨-, -, -, ⟨e0, e1⟩, -⟩ := block_index t
  show V c main_v34 (((cfg4.win 3).blk t).view.emb (ix2 (0 : Fin 1) q)) = V c main_v34 (ix2 (0 : Fin 1) q)
  refine congrArg _ (funext fun a => Fin.ext ?_)
  match a with
  | ⟨0, _⟩ => show win4_3.index t (0 : Fin 2) * 1 + 1 * 0 = 0; rw [e0]
  | ⟨1, _⟩ => show win4_3.index t (1 : Fin 2) * 128 + 1 * q.val = q.val; rw [e1]; omega

/-- The one block of the shift row, at every tile, is the row itself. -/
private theorem row4_at (c : Dev nD) (t : Fin cfg4.N) (q : Fin 128) :
    (iblk4 V c 4 t : Vec Ideal S1x128 .f32) (ix2 (0 : Fin 1) q) = (V c main_v35 : Gin.Arr.A2 1 128) (ix2 (0 : Fin 1) q) := by
  obtain ⟨-, -, -, -, ⟨e0, e1⟩, -⟩ := block_index t
  show V c main_v35 (((cfg4.win 4).blk t).view.emb (ix2 (0 : Fin 1) q)) = V c main_v35 (ix2 (0 : Fin 1) q)
  refine congrArg _ (funext fun a => Fin.ext ?_)
  match a with
  | ⟨0, _⟩ => show win4_4.index t (0 : Fin 2) * 1 + 1 * 0 = 0; rw [e0]
  | ⟨1, _⟩ => show win4_4.index t (1 : Fin 2) * 128 + 1 * q.val = q.val; rw [e1]; omega

/-- What tile t writes back is tile t of the normalised, gated array. -/
private theorem tile_written (c : Dev nD) (t : Fin cfg4.N) :
    (dat4 (F := Ideal) V c).flushed 5 t
      = ((cfg4.win 5).blk t).view.read (Elt Ideal)
          (Gin.Arr.bnSwish (V c main_v27_0) (V c main_v29) (V c main_v33) (V c main_v34) (V c main_v35)) := by
  show (cfg4.win 5).cut (grid4.coords t) ((dat4 V c).after 5 t) = _
  rw [after4_5]
  unfold out4_5
  rw [View.canon_unit_zero zero_offsets]
  simp only [View.ld_unit_zero (S := S2000x128) zero_offsets, View.ld_unit_zero (S := S1x128) zero_offsets]
  funext y
  obtain ⟨r, q, rfl⟩ : ∃ (r : Fin 2000) (q : Fin 128), y = ix2 r q := ⟨y 0, y 1, eq_ix2 y⟩
  show k4_pay1 (iblk4 V c 0 t) (iblk4 V c 1 t) (iblk4 V c 2 t) (iblk4 V c 3 t) (iblk4 V c 4 t) (ix2 r q)
      = Gin.Arr.bnSwish (V c main_v27_0) (V c main_v29) (V c main_v33) (V c main_v34) (V c main_v35)
          (((cfg4.win 5).blk t).view.emb (ix2 r q))
  rw [out_tile_at]
  refine (tile_entry (iblk4 V c 0 t) (iblk4 V c 1 t) (iblk4 V c 2 t) (iblk4 V c 3 t) (iblk4 V c 4 t) r q).trans ?_
  rw [in_tile_at V c t r q, row1_at V c t q, row2_at V c t q, row3_at V c t q, row4_at V c t q]
  rfl

/-- An index of the output array lies in tile t's block iff each coordinate is in the block's range on its axis. -/
private theorem mem_tile (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v36).slice (win4_5.rect t)).set ↔ _
  rw [View.set_slice_whole, Rect.mem_set_unit]
  exact Iff.rfl

/-- Every row p of the output array lies in the tile p / 2000. -/
private theorem tiles_cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : grid4.N = 25 := N_4
  let t : Fin cfg4.N := ⟨(i 0).val / 2000, by show (i 0).val / 2000 < grid4.N; omega⟩
  obtain ⟨-, -, -, -, -, e0, e1⟩ := block_index t
  refine ⟨t, flush4_5 t, ?_⟩
  rw [mem_tile]
  intro a
  match a with
  | ⟨0, _⟩ => show win4_5.index t (0 : Fin 2) * 2000 ≤ (i 0).val ∧ (i 0).val < win4_5.index t (0 : Fin 2) * 2000 + 2000; rw [e0]; show (i 0).val / 2000 * 2000 ≤ (i 0).val ∧ (i 0).val < (i 0).val / 2000 * 2000 + 2000; omega
  | ⟨1, _⟩ => show win4_5.index t (1 : Fin 2) * 128 ≤ (i 1).val ∧ (i 1).val < win4_5.index t (1 : Fin 2) * 128 + 128; rw [e1]; omega

/-- After the launch the output array is the normalised, gated array, entry by entry. -/
theorem region4 (c : Dev nD) :
    ((dat4 (F := Ideal) V c).arrAt 5 cfg4.N : Gin.Arr.A2 50000 128)
      = Gin.Arr.bnSwish (V c main_v27_0) (V c main_v29) (V c main_v33) (V c main_v34) (V c main_v35) :=
  (dat4 (F := Ideal) V c).arrAt_eq_of_cover 5
    (Gin.Arr.bnSwish (V c main_v27_0) (V c main_v29) (V c main_v33) (V c main_v34) (V c main_v35))
    (fun t _ => tile_written V c t) tiles_cover

end Cert.KernelIdeal.KVal

end
-- ==== Proof.KThread.lean ====
/-
  The kernel's result array as a function of its arguments: the values at each boundary between host operations and
  launches, threaded from the launch memory to the return.

  @main is: host operations that build the aggregate (gather the source rows, scale by the edge weights, scatter-add
  into the target rows) and reshape e; the first launch (aggregate + (1 + e)·features); then twice: reshape the bias to a
  row, the launch that applies the linear map and accumulates the column sums of its result and of its squares, host
  divisions by the row count giving the mean and (mean of squares − square of mean) as variance, reshapes of scale and
  shift to rows, and the launch that normalises and gates. Each boundary's contents are the previous boundary's with
  the segment's results put in; an argument is never written, so it is read back to the launch memory.
-/
import proofs.«137879_j90031104459187_1_alg».proof.Proof.Gen.KernelIdeal.Frame
import proofs.«137879_j90031104459187_1_alg».proof.Proof.KForms
import proofs.«137879_j90031104459187_1_alg».proof.Proof.KRegion0
import proofs.«137879_j90031104459187_1_alg».proof.Proof.KRegion1
import proofs.«137879_j90031104459187_1_alg».proof.Proof.KRegion2
import proofs.«137879_j90031104459187_1_alg».proof.Proof.KRegion3
import proofs.«137879_j90031104459187_1_alg».proof.Proof.KRegion4
import Idealize.ShloMosaic.Lib.ValueLayout
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Gin.Arr

variable (m : (ℓ : Loc nD τ sig) → Buf (Elt Ideal) ℓ) (ρ : Dev nD → PrngReg)

/-- A stretch of host operations leaves a buffer it does not write as it found it. -/
macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The named values, as functions of the launch contents `V0` -/

section Named

variable (V0 : Valuation τ sig (Elt Ideal))

/-- The aggregate: each edge's weight times its source row's features, scatter-added into the edge's target row. -/
def aggK : A2 50000 128 :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (V0 (Proc.devRef .tc main_arg11))) (mulf (broadcastInDim S800000x128 ![0, 1] bcast_S800000x1_S800000x128_0_1 (broadcastInDim S800000x1 ![0] bcast_S800000_S800000x1_0 (V0 (Proc.devRef .tc main_arg1)))) (Host.gather gather_S50000x128_S800000x1_S800000x128_1_0_n_n_0_1_1128 (V0 (Proc.devRef .tc main_arg0)) (broadcastInDim S800000x1 ![0] bcast_S800000_S800000x1_0 (select (cmpi .slt (V0 (Proc.devRef .tc main_arg12)) (broadcastInDim S800000 ![] bcast_S_S800000 (constantI S_ 32 0#32))) (addi (V0 (Proc.devRef .tc main_arg12)) (broadcastInDim S800000 ![] bcast_S_S800000 (constantI S_ 32 50000#32))) (V0 (Proc.devRef .tc main_arg12))))))

/-- e as a [1,1] array. -/
def e2 : A2 1 1 := shapeCast S1x1 (V0 (Proc.devRef .tc main_arg10)) shapeCasts_S1_S1x1

/-- The first launch's result: aggregate + (1 + e)·features. -/
def h0 : A2 50000 128 := resid (aggK V0) (V0 (Proc.devRef .tc main_arg0)) (e2 V0)

end Named

/-! ## Before and after the first launch -/

set_option maxHeartbeats 4000000 in
theorem V1_v12 (c : Dev nD) : (V1 m ρ c main_v12 : A2 50000 128) = aggK (W0 m ρ c) := by
  unfold aggK
  show StableHlo.after hostOps0 (W0 m ρ c) (Proc.devRef .tc main_v12) = _
  after_results_simp <;> rfl

theorem V1_arg0 (c : Dev nD) : V1 m ρ c main_arg0 = W0 m ρ c (Proc.devRef .tc main_arg0) := by
  show StableHlo.after hostOps0 (W0 m ρ c) (Proc.devRef .tc main_arg0) = _
  host_keeps hostOps0

set_option maxHeartbeats 4000000 in
theorem V1_v13 (c : Dev nD) : (V1 m ρ c main_v13 : A2 1 1) = e2 (W0 m ρ c) := by
  unfold e2
  show StableHlo.after hostOps0 (W0 m ρ c) (Proc.devRef .tc main_v13) = _
  after_results_simp <;> rfl

theorem W2_v14 (c : Dev nD) : (W2 m ρ c (Proc.devRef .tc main_v14) : A2 50000 128) = h0 (W0 m ρ c) := by
  unfold h0
  rw [← V1_v12 m ρ c, ← V1_arg0 m ρ c, ← V1_v13 m ρ c]
  exact (W2_arr m ρ c 3).trans (region0 (V1 m ρ) c)

/-! ## The later named values -/

section Named2

variable (V0 : Valuation τ sig (Elt Ideal))

/-- The row count as a [1,128] row (the host broadcasts the scalar 50000.0). -/
def nrow : A2 1 128 := broadcastInDim S1x128 ![] bcast_S_S1x128 (constant (F := Ideal) S_ .f32 0x47435000#32)

/-- The column mean from the column sums, and the variance from the sums of squares and the mean, as the host computes them. -/
def meanRow (s : A2 1 128) : A2 1 128 := Host.divf (F := Ideal) (s := S1x128) (φ := .f32) s nrow
def varRow (sq mu : A2 1 128) : A2 1 128 :=
  subf (F := Ideal) (s := S1x128) (φ := .f32) (Host.divf (F := Ideal) (s := S1x128) (φ := .f32) sq nrow) (mulf (F := Ideal) (s := S1x128) (φ := .f32) mu mu)

/-- A [128] argument as a [1,128] row. -/
def asRow (v : A1 128) : A2 1 128 := shapeCast S1x128 v shapeCasts_S128_S1x128

/-- One layer as the kernel's program computes it: the linear map, its statistics, the normalised and gated array. -/
def linOf (h : A2 50000 128) (W : A2 128 128) (b : A1 128) : A2 50000 128 := lin h W (asRow b)
def layerOf (h : A2 50000 128) (W : A2 128 128) (b g be : A1 128) : A2 50000 128 :=
  bnSwish (linOf h W b) (meanRow (colSum (linOf h W b))) (varRow (colSumSq (linOf h W b)) (meanRow (colSum (linOf h W b)))) (asRow g) (asRow be)

def h1 : A2 50000 128 :=
  layerOf (h0 V0) (V0 (Proc.devRef .tc main_arg2)) (V0 (Proc.devRef .tc main_arg3)) (V0 (Proc.devRef .tc main_arg4)) (V0 (Proc.devRef .tc main_arg5))
def h2 : A2 50000 128 :=
  layerOf (h1 V0) (V0 (Proc.devRef .tc main_arg6)) (V0 (Proc.devRef .tc main_arg7)) (V0 (Proc.devRef .tc main_arg8)) (V0 (Proc.devRef .tc main_arg9))

end Named2

/-! ## An untouched buffer at each boundary

A buffer that the host stretches walked do not write and that is no array of the launches walked holds its launch
contents. Each lemma walks one more segment back. -/

section Keep

variable (c : Dev nD) (b : Ref sig .tc)

theorem W1_keep (k0 : StableHlo.after hostOps0 (W0 m ρ c) (Proc.devRef .tc b) = W0 m ρ c (Proc.devRef .tc b)) :
    W1 m ρ c (Proc.devRef .tc b) = W0 m ρ c (Proc.devRef .tc b) := k0
theorem W2_keep (r0 : ∀ w, Pipeline.arrRef spec0 w ≠ b)
    (k0 : StableHlo.after hostOps0 (W0 m ρ c) (Proc.devRef .tc b) = W0 m ρ c (Proc.devRef .tc b)) :
    W2 m ρ c (Proc.devRef .tc b) = W0 m ρ c (Proc.devRef .tc b) := (W2_of_ne m ρ c b r0).trans k0
theorem W3_keep (k1 : StableHlo.after hostOps1 (W2 m ρ c) (Proc.devRef .tc b) = W2 m ρ c (Proc.devRef .tc b))
    (r0 : ∀ w, Pipeline.arrRef spec0 w ≠ b)
    (k0 : StableHlo.after hostOps0 (W0 m ρ c) (Proc.devRef .tc b) = W0 m ρ c (Proc.devRef .tc b)) :
    W3 m ρ c (Proc.devRef .tc b) = W0 m ρ c (Proc.devRef .tc b) := k1.trans (W2_keep m ρ c b r0 k0)
theorem W4_keep (r1 : ∀ w, Pipeline.arrRef spec1 w ≠ b)
    (k1 : StableHlo.after hostOps1 (W2 m ρ c) (Proc.devRef .tc b) = W2 m ρ c (Proc.devRef .tc b))
    (r0 : ∀ w, Pipeline.arrRef spec0 w ≠ b)
    (k0 : StableHlo.after hostOps0 (W0 m ρ c) (Proc.devRef .tc b) = W0 m ρ c (Proc.devRef .tc b)) :
    W4 m ρ c (Proc.devRef .tc b) = W0 m ρ c (Proc.devRef .tc b) := (W4_of_ne m ρ c b r1).trans (W3_keep m ρ c b k1 r0 k0)
theorem W5_keep (k2 : StableHlo.after hostOps2 (W4 m ρ c) (Proc.devRef .tc b) = W4 m ρ c (Proc.devRef .tc b))
    (r1 : ∀ w, Pipeline.arrRef spec1 w ≠ b)
    (k1 : StableHlo.after hostOps1 (W2 m ρ c) (Proc.devRef .tc b) = W2 m ρ c (Proc.devRef .tc b))
    (r0 : ∀ w, Pipeline.arrRef spec0 w ≠ b)
    (k0 : StableHlo.after hostOps0 (W0 m ρ c) (Proc.devRef .tc b) = W0 m ρ c (Proc.devRef .tc b)) :
    W5 m ρ c (Proc.devRef .tc b) = W0 m ρ c (Proc.devRef .tc b) := k2.trans (W4_keep m ρ c b r1 k1 r0 k0)
theorem W6_keep (r2 : ∀ w, Pipeline.arrRef spec2 w ≠ b)
    (k2 : StableHlo.after hostOps2 (W4 m ρ c) (Proc.devRef .tc b) = W4 m ρ c (Proc.devRef .tc b))
    (r1 : ∀ w, Pipeline.arrRef spec1 w ≠ b)
    (k1 : StableHlo.after hostOps1 (W2 m ρ c) (Proc.devRef .tc b) = W2 m ρ c (Proc.devRef .tc b))
    (r0 : ∀ w, Pipeline.arrRef spec0 w ≠ b)
    (k0 : StableHlo.after hostOps0 (W0 m ρ c) (Proc.devRef .tc b) = W0 m ρ c (Proc.devRef .tc b)) :
    W6 m ρ c (Proc.devRef .tc b) = W0 m ρ c (Proc.devRef .tc b) := (W6_of_ne m ρ c b r2).trans (W5_keep m ρ c b k2 r1 k1 r0 k0)
theorem W7_keep (k3 : StableHlo.after hostOps3 (W6 m ρ c) (Proc.devRef .tc b) = W6 m ρ c (Proc.devRef .tc b))
    (r2 : ∀ w, Pipeline.arrRef spec2 w ≠ b)
    (k2 : StableHlo.after hostOps2 (W4 m ρ c) (Proc.devRef .tc b) = W4 m ρ c (Proc.devRef .tc b))
    (r1 : ∀ w, Pipeline.arrRef spec1 w ≠ b)
    (k1 : StableHlo.after hostOps1 (W2 m ρ c) (Proc.devRef .tc b) = W2 m ρ c (Proc.devRef .tc b))
    (r0 : ∀ w, Pipeline.arrRef spec0 w ≠ b)
    (k0 : StableHlo.after hostOps0 (W0 m ρ c) (Proc.devRef .tc b) = W0 m ρ c (Proc.devRef .tc b)) :
    W7 m ρ c (Proc.devRef .tc b) = W0 m ρ c (Proc.devRef .tc b) := k3.trans (W6_keep m ρ c b r2 k2 r1 k1 r0 k0)
theorem W8_keep (r3 : ∀ w, Pipeline.arrRef spec3 w ≠ b)
    (k3 : StableHlo.after hostOps3 (W6 m ρ c) (Proc.devRef .tc b) = W6 m ρ c (Proc.devRef .tc b))
    (r2 : ∀ w, Pipeline.arrRef spec2 w ≠ b)
    (k2 : StableHlo.after hostOps2 (W4 m ρ c) (Proc.devRef .tc b) = W4 m ρ c (Proc.devRef .tc b))
    (r1 : ∀ w, Pipeline.arrRef spec1 w ≠ b)
    (k1 : StableHlo.after hostOps1 (W2 m ρ c) (Proc.devRef .tc b) = W2 m ρ c (Proc.devRef .tc b))
    (r0 : ∀ w, Pipeline.arrRef spec0 w ≠ b)
    (k0 : StableHlo.after hostOps0 (W0 m ρ c) (Proc.devRef .tc b) = W0 m ρ c (Proc.devRef .tc b)) :
    W8 m ρ c (Proc.devRef .tc b) = W0 m ρ c (Proc.devRef .tc b) := (W8_of_ne m ρ c b r3).trans (W7_keep m ρ c b k3 r2 k2 r1 k1 r0 k0)

end Keep

/-! ## The first layer: boundaries 3 to 6 -/

theorem V3_v14 (c : Dev nD) : (V3 m ρ c main_v14 : A2 50000 128) = h0 (W0 m ρ c) := by
  rw [← W2_v14 m ρ c]
  show StableHlo.after hostOps1 (W2 m ρ c) (Proc.devRef .tc main_v14) = _
  host_keeps hostOps1

theorem V3_arg2 (c : Dev nD) : V3 m ρ c main_arg2 = W0 m ρ c (Proc.devRef .tc main_arg2) :=
  W3_keep m ρ c main_arg2 (by host_keeps hostOps1) (by decide) (by host_keeps hostOps0)

theorem V3_v15 (c : Dev nD) : (V3 m ρ c main_v15 : A2 1 128) = asRow (W0 m ρ c (Proc.devRef .tc main_arg3)) := by
  unfold asRow
  rw [← W2_keep m ρ c main_arg3 (by decide) (by host_keeps hostOps0)]
  show StableHlo.after hostOps1 (W2 m ρ c) (Proc.devRef .tc main_v15) = _
  after_results
  rfl

/-- The first linear map's result and its two column sums, after the second launch. -/
theorem W4_v16_0 (c : Dev nD) : (W4 m ρ c (Proc.devRef .tc main_v16_0) : A2 50000 128)
    = linOf (h0 (W0 m ρ c)) (W0 m ρ c (Proc.devRef .tc main_arg2)) (W0 m ρ c (Proc.devRef .tc main_arg3)) := by
  unfold linOf
  rw [← V3_v14 m ρ c, ← V3_arg2 m ρ c, ← V3_v15 m ρ c]
  exact (W4_arr m ρ c 3).trans (region1_out (V3 m ρ) c)
theorem W4_v16_1 (c : Dev nD) : (W4 m ρ c (Proc.devRef .tc main_v16_1) : A2 1 128)
    = colSum (linOf (h0 (W0 m ρ c)) (W0 m ρ c (Proc.devRef .tc main_arg2)) (W0 m ρ c (Proc.devRef .tc main_arg3))) := by
  unfold linOf
  rw [← V3_v14 m ρ c, ← V3_arg2 m ρ c, ← V3_v15 m ρ c]
  exact (W4_arr m ρ c 4).trans (region1_sum (V3 m ρ) c)
theorem W4_v16_2 (c : Dev nD) : (W4 m ρ c (Proc.devRef .tc main_v16_2) : A2 1 128)
    = colSumSq (linOf (h0 (W0 m ρ c)) (W0 m ρ c (Proc.devRef .tc main_arg2)) (W0 m ρ c (Proc.devRef .tc main_arg3))) := by
  unfold linOf
  rw [← V3_v14 m ρ c, ← V3_arg2 m ρ c, ← V3_v15 m ρ c]
  exact (W4_arr m ρ c 5).trans (region1_sq (V3 m ρ) c)

theorem V5_v16_0 (c : Dev nD) : V5 m ρ c main_v16_0 = W4 m ρ c (Proc.devRef .tc main_v16_0) := by
  show StableHlo.after hostOps2 (W4 m ρ c) (Proc.devRef .tc main_v16_0) = _
  host_keeps hostOps2
theorem V5_v18 (c : Dev nD) : (V5 m ρ c main_v18 : A2 1 128) = meanRow (W4 m ρ c (Proc.devRef .tc main_v16_1)) := by
  unfold meanRow nrow
  show StableHlo.after hostOps2 (W4 m ρ c) (Proc.devRef .tc main_v18) = _
  after_results
theorem V5_v22 (c : Dev nD) : (V5 m ρ c main_v22 : A2 1 128)
    = varRow (W4 m ρ c (Proc.devRef .tc main_v16_2)) (meanRow (W4 m ρ c (Proc.devRef .tc main_v16_1))) := by
  unfold varRow meanRow nrow
  show StableHlo.after hostOps2 (W4 m ρ c) (Proc.devRef .tc main_v22) = _
  after_results
theorem V5_v23 (c : Dev nD) : (V5 m ρ c main_v23 : A2 1 128) = asRow (W0 m ρ c (Proc.devRef .tc main_arg4)) := by
  unfold asRow
  rw [← W4_keep m ρ c main_arg4 (by decide) (by host_keeps hostOps1) (by decide) (by host_keeps hostOps0)]
  show StableHlo.after hostOps2 (W4 m ρ c) (Proc.devRef .tc main_v23) = _
  after_results
  rfl
theorem V5_v24 (c : Dev nD) : (V5 m ρ c main_v24 : A2 1 128) = asRow (W0 m ρ c (Proc.devRef .tc main_arg5)) := by
  unfold asRow
  rw [← W4_keep m ρ c main_arg5 (by decide) (by host_keeps hostOps1) (by decide) (by host_keeps hostOps0)]
  show StableHlo.after hostOps2 (W4 m ρ c) (Proc.devRef .tc main_v24) = _
  after_results
  rfl

/-- After the third launch: the first layer's result. -/
theorem W6_v25 (c : Dev nD) : (W6 m ρ c (Proc.devRef .tc main_v25) : A2 50000 128) = h1 (W0 m ρ c) := by
  unfold h1 layerOf
  rw [← W4_v16_1 m ρ c, ← W4_v16_2 m ρ c, ← W4_v16_0 m ρ c, ← V5_v22 m ρ c, ← V5_v18 m ρ c, ← V5_v16_0 m ρ c, ← V5_v23 m ρ c, ← V5_v24 m ρ c]
  exact (W6_arr m ρ c 5).trans (region2 (V5 m ρ) c)

/-! ## The second layer: boundaries 7 to 10 -/

theorem V7_v25 (c : Dev nD) : (V7 m ρ c main_v25 : A2 50000 128) = h1 (W0 m ρ c) := by
  rw [← W6_v25 m ρ c]
  show StableHlo.after hostOps3 (W6 m ρ c) (Proc.devRef .tc main_v25) = _
  host_keeps hostOps3

theorem V7_arg6 (c : Dev nD) : V7 m ρ c main_arg6 = W0 m ρ c (Proc.devRef .tc main_arg6) :=
  W7_keep m ρ c main_arg6 (by host_keeps hostOps3) (by decide) (by host_keeps hostOps2) (by decide) (by host_keeps hostOps1)
    (by decide) (by host_keeps hostOps0)

theorem V7_v26 (c : Dev nD) : (V7 m ρ c main_v26 : A2 1 128) = asRow (W0 m ρ c (Proc.devRef .tc main_arg7)) := by
  unfold asRow
  rw [← W6_keep m ρ c main_arg7 (by decide) (by host_keeps hostOps2) (by decide) (by host_keeps hostOps1) (by decide) (by host_keeps hostOps0)]
  show StableHlo.after hostOps3 (W6 m ρ c) (Proc.devRef .tc main_v26) = _
  after_results
  rfl

theorem W8_v27_0 (c : Dev nD) : (W8 m ρ c (Proc.devRef .tc main_v27_0) : A2 50000 128)
    = linOf (h1 (W0 m ρ c)) (W0 m ρ c (Proc.devRef .tc main_arg6)) (W0 m ρ c (Proc.devRef .tc main_arg7)) := by
  unfold linOf
  rw [← V7_v25 m ρ c, ← V7_arg6 m ρ c, ← V7_v26 m ρ c]
  exact (W8_arr m ρ c 3).trans (region3_out (V7 m ρ) c)
theorem W8_v27_1 (c : Dev nD) : (W8 m ρ c (Proc.devRef .tc main_v27_1) : A2 1 128)
    = colSum (linOf (h1 (W0 m ρ c)) (W0 m ρ c (Proc.devRef .tc main_arg6)) (W0 m ρ c (Proc.devRef .tc main_arg7))) := by
  unfold linOf
  rw [← V7_v25 m ρ c, ← V7_arg6 m ρ c, ← V7_v26 m ρ c]
  exact (W8_arr m ρ c 4).trans (region3_sum (V7 m ρ) c)
theorem W8_v27_2 (c : Dev nD) : (W8 m ρ c (Proc.devRef .tc main_v27_2) : A2 1 128)
    = colSumSq (linOf (h1 (W0 m ρ c)) (W0 m ρ c (Proc.devRef .tc main_arg6)) (W0 m ρ c (Proc.devRef .tc main_arg7))) := by
  unfold linOf
  rw [← V7_v25 m ρ c, ← V7_arg6 m ρ c, ← V7_v26 m ρ c]
  exact (W8_arr m ρ c 5).trans (region3_sq (V7 m ρ) c)

theorem V9_v27_0 (c : Dev nD) : V9 m ρ c main_v27_0 = W8 m ρ c (Proc.devRef .tc main_v27_0) := by
  show StableHlo.after hostOps4 (W8 m ρ c) (Proc.devRef .tc main_v27_0) = _
  host_keeps hostOps4
theorem V9_v29 (c : Dev nD) : (V9 m ρ c main_v29 : A2 1 128) = meanRow (W8 m ρ c (Proc.devRef .tc main_v27_1)) := by
  unfold meanRow nrow
  show StableHlo.after hostOps4 (W8 m ρ c) (Proc.devRef .tc main_v29) = _
  after_results
theorem V9_v33 (c : Dev nD) : (V9 m ρ c main_v33 : A2 1 128)
    = varRow (W8 m ρ c (Proc.devRef .tc main_v27_2)) (meanRow (W8 m ρ c (Proc.devRef .tc main_v27_1))) := by
  unfold varRow meanRow nrow
  show StableHlo.after hostOps4 (W8 m ρ c) (Proc.devRef .tc main_v33) = _
  after_results
theorem V9_v34 (c : Dev nD) : (V9 m ρ c main_v34 : A2 1 128) = asRow (W0 m ρ c (Proc.devRef .tc main_arg8)) := by
  unfold asRow
  rw [← W8_keep m ρ c main_arg8 (by decide) (by host_keeps hostOps3) (by decide) (by host_keeps hostOps2) (by decide)
    (by host_keeps hostOps1) (by decide) (by host_keeps hostOps0)]
  show StableHlo.after hostOps4 (W8 m ρ c) (Proc.devRef .tc main_v34) = _
  after_results
  rfl
theorem V9_v35 (c : Dev nD) : (V9 m ρ c main_v35 : A2 1 128) = asRow (W0 m ρ c (Proc.devRef .tc main_arg9)) := by
  unfold asRow
  rw [← W8_keep m ρ c main_arg9 (by decide) (by host_keeps hostOps3) (by decide) (by host_keeps hostOps2) (by decide)
    (by host_keeps hostOps1) (by decide) (by host_keeps hostOps0)]
  show StableHlo.after hostOps4 (W8 m ρ c) (Proc.devRef .tc main_v35) = _
  after_results
  rfl

/-- After the last launch: the second layer's result, in the result buffer. -/
theorem W10_v36 (c : Dev nD) : (W10 m ρ c (Proc.devRef .tc main_v36) : A2 50000 128) = h2 (W0 m ρ c) := by
  unfold h2 layerOf
  rw [← W8_v27_1 m ρ c, ← W8_v27_2 m ρ c, ← W8_v27_0 m ρ c, ← V9_v33 m ρ c, ← V9_v29 m ρ c, ← V9_v27_0 m ρ c, ← V9_v34 m ρ c, ← V9_v35 m ρ c]
  exact (W10_arr m ρ c 5).trans (region4 (V9 m ρ) c)

/-! ## The same values, entry by entry -/

theorem row_asRow (v : A1 128) : row (asRow v) = vec v :=
  funext fun q => shapeCast_a_1a_apply v _ 0 q

theorem row_meanRow (s : A2 1 128) : row (meanRow s) = fun q => Ideal.div (row s q) Gin.n32 := rfl

theorem row_varRow (sq mu : A2 1 128) : row (varRow sq mu) = fun q => Ideal.div (row sq q) Gin.n32 - row mu q * row mu q := rfl

/-- One layer of the kernel's program, entry by entry, is the specification's layer with the mean-of-squares variance. -/
theorem cur_layerOf (h : A2 50000 128) (W : A2 128 128) (b g be : A1 128) :
    cur (layerOf h W b g be) = Gin.layerK (cur h) (cur W) (vec b) (vec g) (vec be) := by
  unfold layerOf linOf
  rw [cur_bnSwish, row_varRow, row_meanRow, row_colSum, row_colSumSq, cur_lin, row_asRow, row_asRow, row_asRow]
  rfl

theorem e2_apply (V0 : Valuation τ sig (Elt Ideal)) : e2 V0 (ix2 0 0) = V0 (Proc.devRef .tc main_arg10) (ix1 0) :=
  shapeCast_a_1a_apply _ _ 0 0

theorem cur_h2 (V0 : Valuation τ sig (Elt Ideal)) :
    cur (h2 V0) = Gin.layerK
      (Gin.layerK
        (Gin.resid (cur (aggK V0)) (cur (V0 (Proc.devRef .tc main_arg0))) (V0 (Proc.devRef .tc main_arg10) (ix1 0)))
        (cur (V0 (Proc.devRef .tc main_arg2))) (vec (V0 (Proc.devRef .tc main_arg3))) (vec (V0 (Proc.devRef .tc main_arg4))) (vec (V0 (Proc.devRef .tc main_arg5))))
      (cur (V0 (Proc.devRef .tc main_arg6))) (vec (V0 (Proc.devRef .tc main_arg7))) (vec (V0 (Proc.devRef .tc main_arg8))) (vec (V0 (Proc.devRef .tc main_arg9))) := by
  unfold h2 h1 h0
  rw [cur_layerOf, cur_layerOf, cur_resid, e2_apply]

/-- The result buffer after the run, entry by entry: two layers over the aggregate plus (1 + e) times the features. -/
theorem result_value (c : Dev nD) :
    (W10 m ρ c (Proc.devRef .tc main_v36) : A2 50000 128) = fun i => Gin.layerK
      (Gin.layerK
        (Gin.resid (cur (aggK (W0 m ρ c))) (cur (W0 m ρ c (Proc.devRef .tc main_arg0))) (W0 m ρ c (Proc.devRef .tc main_arg10) (ix1 0)))
        (cur (W0 m ρ c (Proc.devRef .tc main_arg2))) (vec (W0 m ρ c (Proc.devRef .tc main_arg3))) (vec (W0 m ρ c (Proc.devRef .tc main_arg4))) (vec (W0 m ρ c (Proc.devRef .tc main_arg5))))
      (cur (W0 m ρ c (Proc.devRef .tc main_arg6))) (vec (W0 m ρ c (Proc.devRef .tc main_arg7))) (vec (W0 m ρ c (Proc.devRef .tc main_arg8))) (vec (W0 m ρ c (Proc.devRef .tc main_arg9)))
      (i 0) (i 1) :=
  eq_of_cur _ _ ((congrArg cur (W10_v36 m ρ c)).trans (cur_h2 (W0 m ρ c)))

end Cert.KernelIdeal.KVal

end
-- ==== Proof.RefValue.lean ====
/-
  The reference's result as a function of its arguments.

  The reference computes the aggregate (each edge's weight times its source row's features, summed into the edge's
  target row), adds (1 + e) times the features, and applies the layer twice: linear map, column mean, the mean of the
  squared deviations as variance, normalisation, and the entry times its logistic — the logistic spelt out as
  1 / (1 + exp(−z)), which is the logistic's definition over the extended reals. Its columns' statistics are [128]
  vectors broadcast first to a row and then down the rows; read at an entry (p, q) they are the vector's entry q. Each
  column sum is the host's reduction from the zero word: 0 plus the sum over the 50000 rows.
-/
import proofs.«137879_j90031104459187_1_alg».proof.Proof.Gen.ReferenceIdeal.Run
import proofs.«137879_j90031104459187_1_alg».proof.Proof.KForms
import proofs.«137879_j90031104459187_1_alg».proof.Proof.LibPlainDot
import proofs.«137879_j90031104459187_1_alg».proof.Proof.LibColSum
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.ReferenceIdeal.RefVal

open Cert.ReferenceIdeal Cert.ReferenceIdeal.Gen Cert.ReferenceIdeal.Value Gin.Arr

/-! ## The layout operations read at an entry -/

/-- A [128] vector broadcast to one row and then down the 50000 rows reads, at the entry (p, q), the vector's entry q. -/
private theorem bcRow_apply (v : FVec Ideal S128 .f32) (p : Fin 50000) (q : Fin 128) :
    broadcastInDim S50000x128 ![0, 1] bcast_S1x128_S50000x128_0_1 (broadcastInDim S1x128 ![1] bcast_S128_S1x128_1 v) (ix2 p q) = v (ix1 q) := by
  unfold broadcastInDim
  refine congrArg v (funext fun a => Fin.ext ?_)
  match a with
  | ⟨0, _⟩ => rfl

/-- A scalar broadcast to the whole matrix reads the scalar at every entry. -/
private theorem bcMat_apply (x : S_.Idx → EReal) (i : S50000x128.Idx) :
    broadcastInDim S50000x128 ![] bcast_S_S50000x128 x i = x ix0 := broadcastInDim_scalar_apply _ x i

/-- A scalar broadcast to a [128] vector reads the scalar at every position. -/
private theorem bcVec_apply (x : S_.Idx → EReal) (i : S128.Idx) :
    broadcastInDim S128 ![] bcast_S_S128 x i = x ix0 := broadcastInDim_scalar_apply _ x i

/-- The inverse square root of a vector, position by position. -/
private theorem rsqrt_apply (v : FVec Ideal S128 .f32) (i : S128.Idx) : Host.rsqrt v i = Ideal.rsqrt (v i) := rfl

/-- The product's dimension numbers contract the left operand's columns with the right operand's rows, nothing batched. -/
private theorem plain : PlainDot.IsPlain dot_S50000x128_S128x128_S50000x128_1_0_0_1_n_n := ⟨rfl, rfl, rfl, rfl, rfl, rfl⟩

/-- Reducing a [50000, 128] matrix over its rows leaves a [128] vector. -/
private theorem reducesRows : S50000x128.Reduces [0] S128 := by decide

/-! ## One layer's stages, for any operands

Each stage is the literal chain of operations the reference applies, over arbitrary operand arrays, read as a function
of row and column (or of the column alone). Both layers are instances. -/

section Stages
variable (o h d : FVec Ideal S50000x128 .f32) (W : FVec Ideal S128x128 .f32) (b mu g be : FVec Ideal S128 .f32)

/-- The aggregate plus (1 + e) times the features: the scalar 1 + e, with e the one entry of a [1] array reshaped to a
    scalar, is broadcast to the matrix and multiplies the features entry by entry. -/
private theorem cur_resid_ops (a x : FVec Ideal S50000x128 .f32) (e : FVec Ideal S1 .f32) :
    cur (addf a (mulf (broadcastInDim S50000x128 ![] bcast_S_S50000x128 (addf (constant (F := Ideal) S_ .f32 0x3F800000#32) (shapeCast _ e shapeCasts_S1_S_))) x))
      = Gin.resid (cur a) (cur x) (e (ix1 0)) := by
  funext p q
  show addf a _ (ix2 p q) = _
  rw [addf_apply, mulf_apply, bcMat_apply, addf_apply, constant_apply]
  have he : shapeCast S_ e shapeCasts_S1_S_ ix0 = e (ix1 0) := shapeCast_apply e _ ix0 (ix1 0) rfl
  rw [he]
  rfl

/-- The linear map: the entry (p, q) of h·W is the sum over k of h(p, k)·W(k, q), and the bias adds its entry q. -/
private theorem cur_lin_ops :
    cur (addf (Host.dotGeneral dot_S50000x128_S128x128_S50000x128_1_0_0_1_n_n none h W)
      (broadcastInDim S50000x128 ![0, 1] bcast_S1x128_S50000x128_0_1 (broadcastInDim S1x128 ![1] bcast_S128_S1x128_1 b)))
      = Gin.lin (cur h) (cur W) (vec b) := by
  funext p q
  show addf _ _ (ix2 p q) = _
  rw [addf_apply, bcRow_apply]
  exact congrArg (· + b (ix1 q)) (PlainDot.dotGeneral_apply plain none .single h W p q)

/-- A column's sum from the zero word is 0 plus the sum of its 50000 entries; divided by the row count's word. -/
private theorem colmean_apply (q : Fin 128) :
    Host.divf (Host.reduceAdd o (constant (F := Ideal) S_ .f32 0x00000000#32) reducesTo_S50000x128_S128_d0 h_S_)
      (broadcastInDim S128 ![] bcast_S_S128 (constant (F := Ideal) S_ .f32 0x47435000#32)) (ix1 q)
      = Ideal.div (∑ p : Fin 50000, o (ix2 p q)) Gin.n32 := by
  rw [hostDivf_apply, bcVec_apply, hostReduceAdd_apply, ColSum.hostReduceAdd_apply _ reducesRows]
  rw [constant_apply, constant_apply, Ideal.ofBits_zero_f32, zero_add]
  rfl

/-- The column means. -/
private theorem vec_mean_ops :
    vec (Host.divf (Host.reduceAdd o (constant (F := Ideal) S_ .f32 0x00000000#32) reducesTo_S50000x128_S128_d0 h_S_)
      (broadcastInDim S128 ![] bcast_S_S128 (constant (F := Ideal) S_ .f32 0x47435000#32)))
      = Gin.mean (cur o) := by
  funext q
  exact colmean_apply o q

/-- The deviations: each entry less its column's entry of a [128] vector. -/
private theorem cur_dev_ops :
    cur (subf o (broadcastInDim S50000x128 ![0, 1] bcast_S1x128_S50000x128_0_1 (broadcastInDim S1x128 ![1] bcast_S128_S1x128_1 mu)))
      = fun p q => cur o p q - vec mu q := by
  funext p q
  show subf o _ (ix2 p q) = _
  rw [subf_apply, bcRow_apply]
  rfl

/-- The normalisation: when mu is the column mean of o and d the array of deviations o − mean, the chain
    (o − mu)·rsqrt(mean of d² + ε)·g + β is, entry by entry, the normalised entry with the mean of the squared
    deviations as variance. -/
private theorem cur_bn_ops (hmu : vec mu = Gin.mean (cur o)) (hd : cur d = fun p q => cur o p q - Gin.mean (cur o) q) :
    cur (addf (mulf (mulf (subf o (broadcastInDim S50000x128 ![0, 1] bcast_S1x128_S50000x128_0_1 (broadcastInDim S1x128 ![1] bcast_S128_S1x128_1 mu)))
        (broadcastInDim S50000x128 ![0, 1] bcast_S1x128_S50000x128_0_1 (broadcastInDim S1x128 ![1] bcast_S128_S1x128_1
          (Host.rsqrt (addf (Host.divf (Host.reduceAdd (mulf d d) (constant (F := Ideal) S_ .f32 0x00000000#32) reducesTo_S50000x128_S128_d0 h_S_)
            (broadcastInDim S128 ![] bcast_S_S128 (constant (F := Ideal) S_ .f32 0x47435000#32)))
            (broadcastInDim S128 ![] bcast_S_S128 (constant (F := Ideal) S_ .f32 0x3727C5AC#32)))))))
        (broadcastInDim S50000x128 ![0, 1] bcast_S1x128_S50000x128_0_1 (broadcastInDim S1x128 ![1] bcast_S128_S1x128_1 g)))
        (broadcastInDim S50000x128 ![0, 1] bcast_S1x128_S50000x128_0_1 (broadcastInDim S1x128 ![1] bcast_S128_S1x128_1 be)))
      = fun p q => Gin.bnz (cur o p q) (Gin.mean (cur o) q) (Gin.varR (cur o) q) (vec g q) (vec be q) := by
  funext p q
  show addf _ _ (ix2 p q) = _
  rw [addf_apply, mulf_apply, mulf_apply, subf_apply, bcRow_apply, bcRow_apply, bcRow_apply, bcRow_apply]
  rw [rsqrt_apply, addf_apply, colmean_apply, bcVec_apply, constant_apply]
  show (o (ix2 p q) - vec mu q) * _ * _ + _ = _
  rw [hmu]
  have hsq : (∑ p' : Fin 50000, mulf d d (ix2 p' q))
      = ∑ p' : Fin 50000, (cur o p' q - Gin.mean (cur o) q) * (cur o p' q - Gin.mean (cur o) q) :=
    Finset.sum_congr rfl fun p' _ => by
      rw [mulf_apply]
      show cur d p' q * cur d p' q = _
      rw [hd]
  rw [hsq]
  rfl

/-- An entry times its logistic: 1 / (1 + exp(−z)) with the word of 1 evaluated is the logistic by definition. -/
private theorem cur_swish_ops (z : FVec Ideal S50000x128 .f32) :
    cur (mulf z (Host.divf (broadcastInDim S50000x128 ![] bcast_S_S50000x128 (constant (F := Ideal) S_ .f32 0x3F800000#32))
      (addf (broadcastInDim S50000x128 ![] bcast_S_S50000x128 (constant (F := Ideal) S_ .f32 0x3F800000#32)) (Host.exp (Host.negf z)))))
      = fun p q => Gin.swish (cur z p q) := by
  funext p q
  show mulf z _ (ix2 p q) = _
  rw [mulf_apply, hostDivf_apply, addf_apply, bcMat_apply, constant_apply, Ideal.ofBits_one_f32]
  rfl

end Stages

variable (V0 : Valuation τ sig (Elt Ideal))

/-- The aggregate array: the host's gather of the source rows, scaled by the edge weights, scatter-added into the
    target rows of a zero array. Kept as ONE array: both programs compute it by the same operations. -/
def agg : A2 50000 128 :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (V0 (Proc.devRef .tc main_arg11))) (mulf (broadcastInDim S800000x128 ![0, 1] bcast_S800000x1_S800000x128_0_1 (broadcastInDim S800000x1 ![0] bcast_S800000_S800000x1_0 (V0 (Proc.devRef .tc main_arg1)))) (Host.gather gather_S50000x128_S800000x1_S800000x128_1_0_n_n_0_1_1128 (V0 (Proc.devRef .tc main_arg0)) (broadcastInDim S800000x1 ![0] bcast_S800000_S800000x1_0 (select (cmpi .slt (V0 (Proc.devRef .tc main_arg12)) (broadcastInDim S800000 ![] bcast_S_S800000 (constantI S_ 32 0#32))) (addi (V0 (Proc.devRef .tc main_arg12)) (broadcastInDim S800000 ![] bcast_S_S800000 (constantI S_ 32 50000#32))) (V0 (Proc.devRef .tc main_arg12))))))

/-! ## The reference's named intermediates -/

/-- The first linear map's result: the aggregate plus (1 + e) times the features, times W1, plus b1. -/
private theorem cur_v21 :
    cur (res_main_v21 V0) = Gin.lin (Gin.resid (cur (agg V0)) (cur (V0 (Proc.devRef .tc main_arg0))) (V0 (Proc.devRef .tc main_arg10) (ix1 0)))
      (cur (V0 (Proc.devRef .tc main_arg2))) (vec (V0 (Proc.devRef .tc main_arg3))) := by
  unfold res_main_v21
  rw [cur_lin_ops, cur_resid_ops]
  rfl

/-- Its column means. -/
private theorem vec_v24 : vec (res_main_v24 V0) = Gin.mean (cur (res_main_v21 V0)) := by
  unfold res_main_v24
  exact vec_mean_ops _

/-- Its deviations from the column means. -/
private theorem cur_v27 : cur (res_main_v27 V0) = fun p q => cur (res_main_v21 V0) p q - Gin.mean (cur (res_main_v21 V0)) q := by
  unfold res_main_v27
  rw [cur_dev_ops, vec_v24]

/-- The first layer's normalised entries. -/
private theorem cur_v46 :
    cur (res_main_v46 V0) = fun p q => Gin.bnz (cur (res_main_v21 V0) p q) (Gin.mean (cur (res_main_v21 V0)) q) (Gin.varR (cur (res_main_v21 V0)) q)
      (vec (V0 (Proc.devRef .tc main_arg4)) q) (vec (V0 (Proc.devRef .tc main_arg5)) q) := by
  unfold res_main_v46
  exact cur_bn_ops _ _ _ _ _ (vec_v24 V0) (cur_v27 V0)

/-- The second linear map's result, over the first layer's entries times their logistics. -/
private theorem cur_v57 :
    cur (res_main_v57 V0) = Gin.lin (fun p q => Gin.swish (cur (res_main_v46 V0) p q))
      (cur (V0 (Proc.devRef .tc main_arg6))) (vec (V0 (Proc.devRef .tc main_arg7))) := by
  unfold res_main_v57
  rw [cur_lin_ops, cur_swish_ops]

/-- Its column means. -/
private theorem vec_v60 : vec (res_main_v60 V0) = Gin.mean (cur (res_main_v57 V0)) := by
  unfold res_main_v60
  exact vec_mean_ops _

/-- Its deviations from the column means. -/
private theorem cur_v63 : cur (res_main_v63 V0) = fun p q => cur (res_main_v57 V0) p q - Gin.mean (cur (res_main_v57 V0)) q := by
  unfold res_main_v63
  rw [cur_dev_ops, vec_v60]

/-- The second layer's normalised entries. -/
private theorem cur_v82 :
    cur (res_main_v82 V0) = fun p q => Gin.bnz (cur (res_main_v57 V0) p q) (Gin.mean (cur (res_main_v57 V0)) q) (Gin.varR (cur (res_main_v57 V0)) q)
      (vec (V0 (Proc.devRef .tc main_arg8)) q) (vec (V0 (Proc.devRef .tc main_arg9)) q) := by
  unfold res_main_v82
  exact cur_bn_ops _ _ _ _ _ (vec_v60 V0) (cur_v63 V0)

/-- The first layer's output: its normalised entries times their logistics. -/
private theorem layer1 :
    (fun p q => Gin.swish (cur (res_main_v46 V0) p q))
      = Gin.layerR (Gin.resid (cur (agg V0)) (cur (V0 (Proc.devRef .tc main_arg0))) (V0 (Proc.devRef .tc main_arg10) (ix1 0)))
          (cur (V0 (Proc.devRef .tc main_arg2))) (vec (V0 (Proc.devRef .tc main_arg3))) (vec (V0 (Proc.devRef .tc main_arg4))) (vec (V0 (Proc.devRef .tc main_arg5))) := by
  rw [cur_v46, cur_v21]
  rfl

/-- The reference's result array is two layers (mean-of-squared-deviations variance) over the aggregate plus (1 + e)
    times the features, entry by entry. -/
theorem result_eq :
    mulf (res_main_v82 V0) (Host.divf (broadcastInDim S50000x128 ![] bcast_S_S50000x128 (constant (F := Ideal) S_ .f32 0x3F800000#32)) (addf (broadcastInDim S50000x128 ![] bcast_S_S50000x128 (constant (F := Ideal) S_ .f32 0x3F800000#32)) (Host.exp (Host.negf (res_main_v82 V0)))))
      = fun i => Gin.layerR
          (Gin.layerR
            (Gin.resid (cur (agg V0)) (cur (V0 (Proc.devRef .tc main_arg0))) (V0 (Proc.devRef .tc main_arg10) (ix1 0)))
            (cur (V0 (Proc.devRef .tc main_arg2))) (vec (V0 (Proc.devRef .tc main_arg3))) (vec (V0 (Proc.devRef .tc main_arg4))) (vec (V0 (Proc.devRef .tc main_arg5))))
          (cur (V0 (Proc.devRef .tc main_arg6))) (vec (V0 (Proc.devRef .tc main_arg7))) (vec (V0 (Proc.devRef .tc main_arg8))) (vec (V0 (Proc.devRef .tc main_arg9)))
          (i 0) (i 1) := by
  refine eq_of_cur _ _ ?_
  rw [cur_swish_ops, cur_v82, cur_v57, layer1]
  rfl

end Cert.ReferenceIdeal.RefVal

end
-- ==== Proof.Finite.lean ====
/-
  From the precondition to real entries.

  The precondition is the conjunction, over the eleven float arguments, of "every entry's absolute value is below
  +∞", each conjunct a reduction of a comparison mask by `and`. An extended real whose absolute value is below ⊤ is
  neither ⊤ nor ⊥, so it is a real number.
-/
import proofs.«137879_j90031104459187_1_alg».proof.Pre_finite_inputs
import proofs.«137879_j90031104459187_1_alg».proof.Proof.LibRealValued
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Pre_finite_inputs.Finite

open Cert.Pre_finite_inputs Cert.RealValued

variable [Cert.Pre_finite_inputs.Facts]

/-- The result shape of a reduction over all axes has a single index. -/
private instance : Subsingleton S_.Idx := ⟨fun a b => funext fun d => d.elim0⟩

/-- The word `0x7F800000` denotes `+∞`. -/
private theorem ofBits_inf : Ideal.ofBits .f32 0x7F800000#32 = (⊤ : EReal) := by
  simp [Ideal.ofBits, Ideal.ieee]

/-- An extended real whose absolute value is below `+∞` is a real number. -/
private theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- If the mask "absolute value below `+∞`", reduced by `and` over all axes, is 1, every entry is real. -/
private theorem real_of_all {S : Shape} {axes : List (Fin S.rank)}
    (hb : S_.BroadcastsInDim S (![] : Fin 0 → Fin S.rank)) (hr : S.ReducesTo axes S_) (hu : 0 < S_.numel)
    (a : FVec Ideal S .f32)
    (h : Host.reduce IntOp.andi
          (cmpf .olt (Host.absf a) (broadcastInDim S ![] hb (constant (F := Ideal) S_ .f32 0x7F800000#32)))
          (constantI S_ 1 1#1) hr hu ix0 = 1#1) :
    ∀ i, IsReal (a i) := by
  intro i
  have e := Host.reduce_andi_all _ _ hr hu ix0 h i
  exact isReal_of_abs_lt (a i) e

/-- Under the precondition every entry of every float argument is a real number. -/
theorem real_of_pre (a0 : FVec Ideal S50000x128 .f32) (a1 : FVec Ideal S800000 .f32) (a2 : FVec Ideal S128x128 .f32)
    (a3 a4 a5 : FVec Ideal S128 .f32) (a6 : FVec Ideal S128x128 .f32) (a7 a8 a9 : FVec Ideal S128 .f32)
    (a10 : FVec Ideal S1 .f32) (a11 a12 : IVec S800000 32)
    (h : fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) := by
  have h0 := congrFun h ValueIdx.ix0
  dsimp only [fn, fn_part1, fn_part2, fn_part3] at h0
  -- the running conjunction, split from the last conjunct back to the first
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7,
    real_of_all _ _ _ a8 e8, real_of_all _ _ _ a9 e9, real_of_all _ _ _ a10 e10⟩

end Cert.Pre_finite_inputs.Finite

end
-- ==== Proof.LibScatterReal.lean ====
/-
  An accumulating scatter, a gather, a broadcast and an entrywise product keep real values real.

  At the exact instance the host's float scatter with an `add` body leaves, at each position, the operand's entry plus
  the finite sum of the updates that land there; a gather and a broadcast read entries of their operand; a product of
  arrays is the product of the entries. So from real operands each produces real entries, whatever the indices are.
  Each statement is about the operation applied to VARIABLE operands, so that it applies to a large composed term by
  matching its outermost operation, without opening the term.
-/
import Idealize.ShloMosaic.PureOps.Ideal
import Idealize.ShloMosaic.PureOps.Ideal.Laws
import proofs.«137879_j90031104459187_1_alg».proof.Proof.LibRealValued

noncomputable section

open scoped BigOperators

namespace ScatterReal

open Idealize.ShloMosaic Cert.RealValued

/-- The accumulating scatter of real updates into a real array is real at every position. -/
theorem hostScatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- The same for the host operation as a program prints it. -/
theorem scatterAdd_real {φ : FTy} {s si su : Shape} (d : ScatterDims s si su) {w : Nat} (x : FVec Ideal s φ) (idx : IVec si w)
    (upd : FVec Ideal su φ) (hx : ∀ i, IsReal (x i)) (hu : ∀ j, IsReal (upd j)) (i : s.Idx) :
    IsReal (Host.scatterAdd d x idx upd i) :=
  hostScatterAdd_real d x idx upd hx hu i

/-- A gather from a real array is real at every position. -/
theorem gather_real {s si t : Shape} {w : Nat} (d : GatherDims s si t) (x : s.Idx → EReal) (idx : IVec si w)
    (hx : ∀ i, IsReal (x i)) (j : t.Idx) : IsReal (Host.gather d x idx j) :=
  hx _

/-- A broadcast of a real array is real at every position. -/
theorem broadcastInDim_real {s t : Shape} (dims : Fin s.rank → Fin t.rank) (h : s.BroadcastsInDim t dims) (x : s.Idx → EReal)
    (hx : ∀ k, IsReal (x k)) (j : t.Idx) : IsReal (broadcastInDim t dims h x j) :=
  hx _

/-- The entrywise product of real arrays is real. -/
theorem mulf_real {φ : FTy} {s : Shape} (a b : FVec Ideal s φ) (ha : ∀ i, IsReal (a i)) (hb : ∀ i, IsReal (b i)) (i : s.Idx) :
    IsReal (mulf a b i) :=
  (ha i).mul (hb i)

/-- The zero word, as a constant array, is real. -/
theorem constant_zero_real {s : Shape} (i : s.Idx) : IsReal (constant (F := Ideal) s .f32 0x00000000#32 i) :=
  ⟨0, Ideal.ofBits_zero_f32⟩

end ScatterReal

end
-- ==== Proof.KAggReal.lean ====
/-
  The aggregate of real features and real edge weights is real.

  A gather reads entries of the features; each update is an edge weight times a gathered entry; the accumulating
  scatter adds finitely many updates to a zero entry.
-/
import proofs.«137879_j90031104459187_1_alg».proof.Proof.KThread
import proofs.«137879_j90031104459187_1_alg».proof.Proof.LibScatterReal

noncomputable section

namespace Cert.KernelIdeal.KVal

open Idealize.ShloMosaic Idealize.ShloMosaic.TcCoe Idealize.ShloMosaic.ValueIdx Cert.RealValued Gin.Arr
open Cert.KernelIdeal Cert.KernelIdeal.Gen

theorem aggK_real (V0 : Valuation τ sig (Elt Ideal))
    (hx : ∀ i, IsReal ((V0 (Proc.devRef .tc main_arg0) : A2 50000 128) i))
    (hv : ∀ i, IsReal ((V0 (Proc.devRef .tc main_arg1) : A1 800000) i)) :
    ∀ i, IsReal (aggK V0 i) := by
  intro i
  unfold aggK
  refine ScatterReal.scatterAdd_real _ _ _ _ ?_ ?_ i
  · exact fun k => ScatterReal.broadcastInDim_real _ _ _ (fun _ => ScatterReal.constant_zero_real _) k
  · refine fun j => ScatterReal.mulf_real _ _ ?_ ?_ j
    · exact fun k => ScatterReal.broadcastInDim_real _ _ _ (fun k' => ScatterReal.broadcastInDim_real _ _ _ hv k') k
    · exact fun k => ScatterReal.gather_real _ _ _ hx k

end Cert.KernelIdeal.KVal

end
-- ==== Proof.AggEq.lean ====
/-
  The aggregate is one array in both programs.

  Both programs build it by the same host operations with the same dimension numbers — gather the source rows, scale by
  the edge weights, scatter-add into the target rows of a zero array — from their own copies of the arguments. Where
  the four arguments it reads (features, edge weights, target rows, source rows) agree, the two arrays are equal.
-/
import proofs.«137879_j90031104459187_1_alg».proof.Proof.KThread
import proofs.«137879_j90031104459187_1_alg».proof.Proof.RefValue

noncomputable section

namespace Cert.Proof

open Idealize.ShloMosaic Idealize.ShloMosaic.TcCoe Gin.Arr

theorem agg_eq (V : Valuation Cert.ReferenceIdeal.τ Cert.ReferenceIdeal.sig (Elt Ideal))
    (V' : Valuation Cert.KernelIdeal.τ Cert.KernelIdeal.sig (Elt Ideal))
    (e0 : V (Proc.devRef .tc Cert.ReferenceIdeal.main_arg0) = V' (Proc.devRef .tc Cert.KernelIdeal.main_arg0))
    (e1 : V (Proc.devRef .tc Cert.ReferenceIdeal.main_arg1) = V' (Proc.devRef .tc Cert.KernelIdeal.main_arg1))
    (e11 : V (Proc.devRef .tc Cert.ReferenceIdeal.main_arg11) = V' (Proc.devRef .tc Cert.KernelIdeal.main_arg11))
    (e12 : V (Proc.devRef .tc Cert.ReferenceIdeal.main_arg12) = V' (Proc.devRef .tc Cert.KernelIdeal.main_arg12)) :
    Cert.ReferenceIdeal.RefVal.agg V = Cert.KernelIdeal.KVal.aggK V' := by
  unfold Cert.ReferenceIdeal.RefVal.agg Cert.KernelIdeal.KVal.aggK
  rw [e0, e1, e11, e12]
  rfl

end Cert.Proof

end
-- ==== Proof.Layers.lean ====
/-
  Two layers over the residual sum, as functions of whole arrays, and why the two programs' versions agree.

  `twoK` takes the variance as the mean of the squares minus the square of the mean, `twoR` as the mean of the squared
  deviations; otherwise they are the same function of the aggregate, the features, e, and the two layers' weights,
  biases, scales and shifts. Where every operand holds real numbers the two agree: the first layer's operands are real,
  so its two variances agree and its result is real; that makes the second layer's operands real in turn.
-/
import proofs.«137879_j90031104459187_1_alg».proof.Proof.KForms

noncomputable section

namespace Gin.Arr

open Idealize.ShloMosaic Idealize.ShloMosaic.ValueIdx Cert.RealValued

/-- A matrix array with real entries, as a function of row and column, is real-valued. -/
theorem realM_cur {a b : ℕ} (v : A2 a b) (h : ∀ i, IsReal (v i)) : Gin.RealM (cur v) := fun p q => h (ix2 p q)
/-- A vector with real entries, as a function of its position, is real-valued. -/
theorem realR_vec {b : ℕ} (v : A1 b) (h : ∀ i, IsReal (v i)) : Gin.RealR (vec v) := fun q => h (ix1 q)

/-- Two layers, variance = mean of squares − square of mean. -/
def twoK (agg x : A2 50000 128) (e : A1 1) (W1 : A2 128 128) (b1 g1 be1 : A1 128) (W2 : A2 128 128) (b2 g2 be2 : A1 128) :
    A2 50000 128 :=
  fun i => Gin.layerK
    (Gin.layerK (Gin.resid (cur agg) (cur x) (e (ix1 0))) (cur W1) (vec b1) (vec g1) (vec be1))
    (cur W2) (vec b2) (vec g2) (vec be2) (i 0) (i 1)

/-- Two layers, variance = mean of squared deviations. -/
def twoR (agg x : A2 50000 128) (e : A1 1) (W1 : A2 128 128) (b1 g1 be1 : A1 128) (W2 : A2 128 128) (b2 g2 be2 : A1 128) :
    A2 50000 128 :=
  fun i => Gin.layerR
    (Gin.layerR (Gin.resid (cur agg) (cur x) (e (ix1 0))) (cur W1) (vec b1) (vec g1) (vec be1))
    (cur W2) (vec b2) (vec g2) (vec be2) (i 0) (i 1)

/-- On real operands the two agree. -/
theorem twoR_eq_twoK (agg x : A2 50000 128) (e : A1 1) (W1 : A2 128 128) (b1 g1 be1 : A1 128) (W2 : A2 128 128) (b2 g2 be2 : A1 128)
    (hagg : ∀ i, IsReal (agg i)) (hx : ∀ i, IsReal (x i)) (he : ∀ i, IsReal (e i)) (hW1 : ∀ i, IsReal (W1 i))
    (hb1 : ∀ i, IsReal (b1 i)) (hg1 : ∀ i, IsReal (g1 i)) (hbe1 : ∀ i, IsReal (be1 i)) (hW2 : ∀ i, IsReal (W2 i))
    (hb2 : ∀ i, IsReal (b2 i)) :
    twoR agg x e W1 b1 g1 be1 W2 b2 g2 be2 = twoK agg x e W1 b1 g1 be1 W2 b2 g2 be2 := by
  have hh0 := Gin.resid_real (realM_cur agg hagg) (realM_cur x hx) (he (ix1 0))
  have E1 := Gin.layer_eq (vec g1) (vec be1) hh0 (realM_cur W1 hW1) (realR_vec b1 hb1)
  have E2 := Gin.layer_eq (vec g2) (vec be2)
    (Gin.layerR_real hh0 (realM_cur W1 hW1) (realR_vec b1 hb1) (realR_vec g1 hg1) (realR_vec be1 hbe1)) (realM_cur W2 hW2) (realR_vec b2 hb2)
  unfold twoR twoK
  rw [E1, E2]

/-- The same with the two sides' operands given separately and equal. -/
theorem twoR_eq_twoK_of_eq {aggR aggK xR xK : A2 50000 128} {eR eK : A1 1} {W1R W1K : A2 128 128} {b1R b1K g1R g1K be1R be1K : A1 128}
    {W2R W2K : A2 128 128} {b2R b2K g2R g2K be2R be2K : A1 128}
    (eagg : aggR = aggK) (ex : xR = xK) (ee : eR = eK) (eW1 : W1R = W1K) (eb1 : b1R = b1K) (eg1 : g1R = g1K) (ebe1 : be1R = be1K)
    (eW2 : W2R = W2K) (eb2 : b2R = b2K) (eg2 : g2R = g2K) (ebe2 : be2R = be2K)
    (hagg : ∀ i, IsReal (aggK i)) (hx : ∀ i, IsReal (xK i)) (he : ∀ i, IsReal (eK i)) (hW1 : ∀ i, IsReal (W1K i))
    (hb1 : ∀ i, IsReal (b1K i)) (hg1 : ∀ i, IsReal (g1K i)) (hbe1 : ∀ i, IsReal (be1K i)) (hW2 : ∀ i, IsReal (W2K i))
    (hb2 : ∀ i, IsReal (b2K i)) :
    twoR aggR xR eR W1R b1R g1R be1R W2R b2R g2R be2R = twoK aggK xK eK W1K b1K g1K be1K W2K b2K g2K be2K := by
  subst eagg ex ee eW1 eb1 eg1 ebe1 eW2 eb2 eg2 ebe2
  exact twoR_eq_twoK _ _ _ _ _ _ _ _ _ _ _ hagg hx he hW1 hb1 hg1 hbe1 hW2 hb2

end Gin.Arr

end
-- ==== Proof.lean ====
/-
  The certificate: a two-layer graph network block (aggregate, residual, then twice linear map → batch statistics →
  normalise → multiply by the logistic), as five tiled launches, against its plain array reference, over the extended reals.

  Both programs build the aggregate by the same host operations. The kernel's launches compute, tile by tile, the
  residual sum, the linear map with the running column sums of its result and of its squares, and the normalised and
  gated array; the host takes the variance as (mean of squares) − (mean)². The reference takes it as the mean of the
  squared deviations. Under the precondition every argument entry is a real number, so is every intermediate entry
  (finite sums and products; a positive guard under the inverse square root; the logistic of a real), and on real
  entries the two variances are one number. So the two result arrays are equal, entry by entry.
-/
import proofs.«137879_j90031104459187_1_alg».proof.Defs
import proofs.«137879_j90031104459187_1_alg».proof.Proof.Gen.Kernel
import proofs.«137879_j90031104459187_1_alg».proof.Proof.Gen.Kernel.Skeleton
import proofs.«137879_j90031104459187_1_alg».proof.Proof.Gen.Kernel.Launch
import proofs.«137879_j90031104459187_1_alg».proof.Proof.Gen.Kernel.Points
import proofs.«137879_j90031104459187_1_alg».proof.Proof.Gen.Kernel.Frame
import proofs.«137879_j90031104459187_1_alg».proof.Proof.Gen.KernelIdeal
import proofs.«137879_j90031104459187_1_alg».proof.Proof.Gen.KernelIdeal.Skeleton
import proofs.«137879_j90031104459187_1_alg».proof.Proof.Gen.KernelIdeal.Launch
import proofs.«137879_j90031104459187_1_alg».proof.Proof.Gen.KernelIdeal.Points
import proofs.«137879_j90031104459187_1_alg».proof.Proof.Gen.KernelIdeal.Frame
import proofs.«137879_j90031104459187_1_alg».proof.Proof.Gen.ReferenceIdeal
import proofs.«137879_j90031104459187_1_alg».proof.Proof.Gen.ReferenceIdeal.Run
import proofs.«137879_j90031104459187_1_alg».proof.Proof.Gen.Pre_finite_inputs
import proofs.«137879_j90031104459187_1_alg».proof.Proof.KRun
import proofs.«137879_j90031104459187_1_alg».proof.Proof.KThread
import proofs.«137879_j90031104459187_1_alg».proof.Proof.RefValue
import proofs.«137879_j90031104459187_1_alg».proof.Proof.Finite
import proofs.«137879_j90031104459187_1_alg».proof.Proof.KAggReal
import proofs.«137879_j90031104459187_1_alg».proof.Proof.AggEq
import proofs.«137879_j90031104459187_1_alg».proof.Proof.Layers
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.RealValued Gin.Arr

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at two layers (variance: mean of squares − square of mean) over the aggregate plus
    (1 + e)·features, the reference's at two layers (variance: mean of squared deviations) over the same; the
    arguments agree and are real, so the layers agree. -/
theorem algebraic : Cert.algebraic_KernelIdeal_ReferenceIdeal := by
  intro m ρ m' ρ' hpre hagree
  refine ⟨fun c => Cert.KernelIdeal.Gen.W10 m ρ c (Proc.devRef .tc Cert.KernelIdeal.main_v36), Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  -- what the precondition gives: every float argument's entries are real numbers
  obtain ⟨r0, r1, r2, r3, r4, r5, r6, r7, r8, r9, r10⟩ := Cert.Pre_finite_inputs.Finite.real_of_pre _ _ _ _ _ _ _ _ _ _ _ _ _ (hpre c)
  -- the reference's result, then the kernel's, entry by entry
  refine (Cert.ReferenceIdeal.RefVal.result_eq (StableHlo.launchContents m' c)).trans
    (Eq.trans ?_ (Cert.KernelIdeal.KVal.result_value m ρ c).symm)
  -- the two programs' launch contents agree at every argument
  have e0 : StableHlo.launchContents m' c (Proc.devRef .tc Cert.ReferenceIdeal.main_arg0) = Cert.KernelIdeal.Gen.W0 m ρ c (Proc.devRef .tc Cert.KernelIdeal.main_arg0) := a0
  have e1 : StableHlo.launchContents m' c (Proc.devRef .tc Cert.ReferenceIdeal.main_arg1) = Cert.KernelIdeal.Gen.W0 m ρ c (Proc.devRef .tc Cert.KernelIdeal.main_arg1) := a1
  have e2 : StableHlo.launchContents m' c (Proc.devRef .tc Cert.ReferenceIdeal.main_arg2) = Cert.KernelIdeal.Gen.W0 m ρ c (Proc.devRef .tc Cert.KernelIdeal.main_arg2) := a2
  have e3 : StableHlo.launchContents m' c (Proc.devRef .tc Cert.ReferenceIdeal.main_arg3) = Cert.KernelIdeal.Gen.W0 m ρ c (Proc.devRef .tc Cert.KernelIdeal.main_arg3) := a3
  have e4 : StableHlo.launchContents m' c (Proc.devRef .tc Cert.ReferenceIdeal.main_arg4) = Cert.KernelIdeal.Gen.W0 m ρ c (Proc.devRef .tc Cert.KernelIdeal.main_arg4) := a4
  have e5 : StableHlo.launchContents m' c (Proc.devRef .tc Cert.ReferenceIdeal.main_arg5) = Cert.KernelIdeal.Gen.W0 m ρ c (Proc.devRef .tc Cert.KernelIdeal.main_arg5) := a5
  have e6 : StableHlo.launchContents m' c (Proc.devRef .tc Cert.ReferenceIdeal.main_arg6) = Cert.KernelIdeal.Gen.W0 m ρ c (Proc.devRef .tc Cert.KernelIdeal.main_arg6) := a6
  have e7 : StableHlo.launchContents m' c (Proc.devRef .tc Cert.ReferenceIdeal.main_arg7) = Cert.KernelIdeal.Gen.W0 m ρ c (Proc.devRef .tc Cert.KernelIdeal.main_arg7) := a7
  have e8 : StableHlo.launchContents m' c (Proc.devRef .tc Cert.ReferenceIdeal.main_arg8) = Cert.KernelIdeal.Gen.W0 m ρ c (Proc.devRef .tc Cert.KernelIdeal.main_arg8) := a8
  have e9 : StableHlo.launchContents m' c (Proc.devRef .tc Cert.ReferenceIdeal.main_arg9) = Cert.KernelIdeal.Gen.W0 m ρ c (Proc.devRef .tc Cert.KernelIdeal.main_arg9) := a9
  have e10 : StableHlo.launchContents m' c (Proc.devRef .tc Cert.ReferenceIdeal.main_arg10) = Cert.KernelIdeal.Gen.W0 m ρ c (Proc.devRef .tc Cert.KernelIdeal.main_arg10) := a10
  have e11 : StableHlo.launchContents m' c (Proc.devRef .tc Cert.ReferenceIdeal.main_arg11) = Cert.KernelIdeal.Gen.W0 m ρ c (Proc.devRef .tc Cert.KernelIdeal.main_arg11) := a11
  have e12 : StableHlo.launchContents m' c (Proc.devRef .tc Cert.ReferenceIdeal.main_arg12) = Cert.KernelIdeal.Gen.W0 m ρ c (Proc.devRef .tc Cert.KernelIdeal.main_arg12) := a12
  -- both results as two layers over whole arrays: the reference's with its own arguments, the kernel's with its own
  show Gin.Arr.twoR (Cert.ReferenceIdeal.RefVal.agg (StableHlo.launchContents m' c)) (StableHlo.launchContents m' c (Proc.devRef .tc Cert.ReferenceIdeal.main_arg0)) (StableHlo.launchContents m' c (Proc.devRef .tc Cert.ReferenceIdeal.main_arg10)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9))
    = Gin.Arr.twoK (Cert.KernelIdeal.KVal.aggK (Cert.KernelIdeal.Gen.W0 m ρ c)) (Cert.KernelIdeal.Gen.W0 m ρ c (Proc.devRef .tc Cert.KernelIdeal.main_arg0)) (Cert.KernelIdeal.Gen.W0 m ρ c (Proc.devRef .tc Cert.KernelIdeal.main_arg10)) (Cert.KernelIdeal.Gen.W0 m ρ c (Proc.devRef .tc Cert.KernelIdeal.main_arg2)) (Cert.KernelIdeal.Gen.W0 m ρ c (Proc.devRef .tc Cert.KernelIdeal.main_arg3)) (Cert.KernelIdeal.Gen.W0 m ρ c (Proc.devRef .tc Cert.KernelIdeal.main_arg4)) (Cert.KernelIdeal.Gen.W0 m ρ c (Proc.devRef .tc Cert.KernelIdeal.main_arg5)) (Cert.KernelIdeal.Gen.W0 m ρ c (Proc.devRef .tc Cert.KernelIdeal.main_arg6)) (Cert.KernelIdeal.Gen.W0 m ρ c (Proc.devRef .tc Cert.KernelIdeal.main_arg7)) (Cert.KernelIdeal.Gen.W0 m ρ c (Proc.devRef .tc Cert.KernelIdeal.main_arg8)) (Cert.KernelIdeal.Gen.W0 m ρ c (Proc.devRef .tc Cert.KernelIdeal.main_arg9))
  -- the arguments agree (so the aggregate is one array) and are real: the two variances, hence the layers, agree
  exact Gin.Arr.twoR_eq_twoK_of_eq (agg_eq _ _ e0 e1 e11 e12) e0 e10 e2 e3 e4 e5 e6 e7 e8 e9
    (Cert.KernelIdeal.KVal.aggK_real _ r0 r1) r0 r10 r2 r3 r4 r5 r6 r7

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
